-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x40 : Shape := ⟨2, ![1048576, 40]⟩
abbrev S1048576x18 : Shape := ⟨2, ![1048576, 18]⟩
abbrev S_ : Shape := ⟨0, ![]⟩

class Facts : Prop where
  bcast_S_S1048576x40 : S_.BroadcastsInDim S1048576x40 (![] : Fin 0 → Fin S1048576x40.rank)
  reducesTo_S1048576x40_S_d0_1 : S1048576x40.ReducesTo [0, 1] S_
  h_S_ : 0 < S_.numel

variable [Facts]

def fn {F : FTy → Type} [FloatOps F] (main_arg0 : FVec F S1048576x40 .f32) (main_arg1 : IVec S1048576x18 32) : IVec S_ 1 :=
  let main_v0 : FVec F S1048576x40 .f32 := Host.absf main_arg0
  let main_cst : FVec F S_ .f32 := constant S_ .f32 0x7F800000#32
  let main_v1 : FVec F S1048576x40 .f32 := broadcastInDim S1048576x40 ![] bcast_S_S1048576x40 main_cst
  let main_v2 : IVec S1048576x40 1 := cmpf .olt main_v0 main_v1
  let main_c : IVec S_ 1 := constantI S_ 1 1#1
  let main_v3 : IVec S_ 1 := (fun x v => Host.reduce IntOp.andi x v reducesTo_S1048576x40_S_d0_1 h_S_) main_v2 main_c
  main_v3
-- ==== Kernel.lean ====
abbrev S1048576x40 : Shape := ⟨2, ![1048576, 40]⟩
abbrev S1048576x18 : Shape := ⟨2, ![1048576, 18]⟩
abbrev S16x128 : Shape := ⟨2, ![16, 128]⟩
abbrev S2048x40 : Shape := ⟨2, ![2048, 40]⟩
abbrev S2048x18 : Shape := ⟨2, ![2048, 18]⟩
abbrev S8x128 : Shape := ⟨2, ![8, 128]⟩
abbrev S1x1 : Shape := ⟨2, ![1, 1]⟩
abbrev S2048x1 : Shape := ⟨2, ![2048, 1]⟩
abbrev S2048 : Shape := ⟨1, ![2048]⟩
abbrev S1 : Shape := ⟨1, ![1]⟩
abbrev S_ : Shape := ⟨0, ![]⟩

abbrev nBuf : Space → Nat
  | .hbm => 5
  | .vmem => 7
  | .smem => 0
  | _ => 0

abbrev bufTy : (tb : Table) → Fin (tcTables nBuf tb) → BufTy
  | .hbm, ⟨0, _⟩ => ⟨S1048576x40, .f32⟩
  | .hbm, ⟨1, _⟩ => ⟨S1048576x18, .i32⟩
  | .hbm, ⟨2, _⟩ => ⟨S16x128, .f32⟩
  | .hbm, ⟨3, _⟩ => ⟨S_, .f32⟩
  | .hbm, ⟨4, _⟩ => ⟨S_, .f32⟩
  | .local _ .vmem, ⟨0, _⟩ => ⟨S2048x40, .f32⟩
  | .local _ .vmem, ⟨1, _⟩ => ⟨S2048x40, .f32⟩
  | .local _ .vmem, ⟨2, _⟩ => ⟨S2048x18, .i32⟩
  | .local _ .vmem, ⟨3, _⟩ => ⟨S2048x18, .i32⟩
  | .local _ .vmem, ⟨4, _⟩ => ⟨S8x128, .f32⟩
  | .local _ .vmem, ⟨5, _⟩ => ⟨S8x128, .f32⟩
  | .local _ .vmem, ⟨6, _⟩ => ⟨S1x1, .f32⟩
  | _, _ => ⟨S1048576x40, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 256], ![false, false]⟩

def k0_cond2 (i : grid0.Coords) : BitVec 1 :=
  let arg1 : BitVec 32 := BitVec.ofNat 32 (i 1).val
  let c255_i32 : BitVec 32 := 255#32
  let v64 : BitVec 1 := Scalar.cmpi .eq arg1 c255_i32
  let v65 : BitVec 32 := Scalar.extui v64
  let c0_i32_19 : BitVec 32 := 0#32
  let v66 : BitVec 1 := Scalar.cmpi .ne v65 c0_i32_19
  v66

def cc0_transform_0 (i : grid0.Coords) : Fin 2 → Nat :=
  let arg0 : BitVec 32 := BitVec.ofNat 32 (i 0).val
  let arg1 : BitVec 32 := BitVec.ofNat 32 (i 1).val
  let c256_i32 : BitVec 32 := 256#32
  let v0 : BitVec 32 := Scalar.muli arg0 c256_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c256_i32 : BitVec 32 := 256#32
  let v0 : BitVec 32 := Scalar.muli arg0 c256_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x40 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x18 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S2048x40_S2048x40_0_0 : ∀ a, (![0, 0] : Fin 2 → Nat) a + S2048x40.size a ≤ S2048x40.size a
  h_S2048x40 : 0 < S2048x40.numel
  inb_S2048x18_S2048x18_0_0 : ∀ a, (![0, 0] : Fin 2 → Nat) a + S2048x18.size a ≤ S2048x18.size a
  h_S2048x18 : 0 < S2048x18.numel
  slices_S2048x40_o0_4_S2048x1 : S2048x40.Slices ![0, 4] S2048x1
  slices_S2048x40_o0_8_S2048x1 : S2048x40.Slices ![0, 8] S2048x1
  slices_S2048x40_o0_9_S2048x1 : S2048x40.Slices ![0, 9] S2048x1
  slices_S2048x40_o0_11_S2048x1 : S2048x40.Slices ![0, 11] S2048x1
  slices_S2048x40_o0_13_S2048x1 : S2048x40.Slices ![0, 13] S2048x1
  slices_S2048x40_o0_14_S2048x1 : S2048x40.Slices ![0, 14] S2048x1
  slices_S2048x40_o0_15_S2048x1 : S2048x40.Slices ![0, 15] S2048x1
  slices_S2048x40_o0_16_S2048x1 : S2048x40.Slices ![0, 16] S2048x1
  slices_S2048x40_o0_17_S2048x1 : S2048x40.Slices ![0, 17] S2048x1
  slices_S2048x40_o0_18_S2048x1 : S2048x40.Slices ![0, 18] S2048x1
  slices_S2048x40_o0_20_S2048x1 : S2048x40.Slices ![0, 20] S2048x1
  slices_S2048x40_o0_22_S2048x1 : S2048x40.Slices ![0, 22] S2048x1
  slices_S2048x40_o0_23_S2048x1 : S2048x40.Slices ![0, 23] S2048x1
  slices_S2048x40_o0_26_S2048x1 : S2048x40.Slices ![0, 26] S2048x1
  slices_S2048x40_o0_29_S2048x1 : S2048x40.Slices ![0, 29] S2048x1
  slices_S2048x40_o0_30_S2048x1 : S2048x40.Slices ![0, 30] S2048x1
  slices_S2048x40_o0_31_S2048x1 : S2048x40.Slices ![0, 31] S2048x1
  slices_S2048x40_o0_36_S2048x1 : S2048x40.Slices ![0, 36] S2048x1
  concatenates_S2048x1_S2048x1_S2048x1_S2048x1_S2048x1_S2048x1_S2048x1_S2048x1_S2048x1_S2048x1_S2048x1_S2048x1_S2048x1_S2048x1_S2048x1_S2048x1_S2048x1_S2048x1_S2048x18_d1 : Shape.Concatenates [S2048x1, S2048x1, S2048x1, S2048x1, S2048x1, S2048x1, S2048x1, S2048x1, S2048x1, S2048x1, S2048x1, S2048x1, S2048x1, S2048x1, S2048x1, S2048x1, S2048x1, S2048x1] S2048x18 1
  reduces_S2048x18_S2048 : S2048x18.Reduces [1] S2048
  shapeCasts_S2048_S2048x1 : S2048.ShapeCasts S2048x1
  reduces_S2048x1_S1 : S2048x1.Reduces [0] S1
  shapeCasts_S1_S1x1 : S1.ShapeCasts S1x1
  inb_S8x128_S8x128_0_0 : ∀ a, (![0, 0] : Fin 2 → Nat) a + S8x128.size a ≤ S8x128.size a
  h_S8x128 : 0 < S8x128.numel
  inb_S8x128_S1x1_0_0 : ∀ a, (![0, 0] : Fin 2 → Nat) a + S1x1.size a ≤ S8x128.size a
  reducesTo_S16x128_S_d0_1 : S16x128.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x40.size a ≤ S1048576x40.size a
  hwx0_0 : ∀ i : grid0.Coords, EltTy.bits .f32 = 32 ∨ (Rect.block (s := S1048576x40) S2048x40.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x18.size a ≤ S1048576x18.size a
  hwx0_1 : ∀ i : grid0.Coords, EltTy.bits .i32 = 32 ∨ (Rect.block (s := S1048576x18) S2048x18.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S16x128.size a
  hwx0_2 : ∀ i : grid0.Coords, EltTy.bits .f32 = 32 ∨ (Rect.block (s := S16x128) S8x128.size (cc0_transform_2 i) (hinb0_2 i)).WholeWords (EltTy.packing .f32)

variable [Facts₀]

abbrev win0_0 : Pipeline.Window sig grid0 :=
  Pipeline.Window.ofSpec (Memref.whole main_arg0) S2048x40.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x18.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S1048576x40 : Shape := ⟨2, ![1048576, 40]⟩
abbrev S1048576x18 : Shape := ⟨2, ![1048576, 18]⟩
abbrev S18 : Shape := ⟨1, ![18]⟩
abbrev S_ : Shape := ⟨0, ![]⟩
abbrev S18x1 : Shape := ⟨2, ![18, 1]⟩
abbrev S1048576 : Shape := ⟨1, ![1048576]⟩

abbrev nBuf : Space → Nat
  | .hbm => 56
  | .vmem => 0
  | .smem => 0
  | _ => 0

abbrev bufTy : (tb : Table) → Fin (tcTables nBuf tb) → BufTy
  | .hbm, ⟨0, _⟩ => ⟨S1048576x40, .f32⟩
  | .hbm, ⟨1, _⟩ => ⟨S1048576x18, .i32⟩
  | .hbm, ⟨2, _⟩ => ⟨S18, .i32⟩
  | .hbm, ⟨3, _⟩ => ⟨S_, .i32⟩
  | .hbm, ⟨4, _⟩ => ⟨S18, .i32⟩
  | .hbm, ⟨5, _⟩ => ⟨S18, .i1⟩
  | .hbm, ⟨6, _⟩ => ⟨S_, .i32⟩
  | .hbm, ⟨7, _⟩ => ⟨S18, .i32⟩
  | .hbm, ⟨8, _⟩ => ⟨S18, .i32⟩
  | .hbm, ⟨9, _⟩ => ⟨S18, .i32⟩
  | .hbm, ⟨10, _⟩ => ⟨S18x1, .i32⟩
  | .hbm, ⟨11, _⟩ => ⟨S1048576x18, .f32⟩
  | .hbm, ⟨12, _⟩ => ⟨S1048576x18, .f32⟩
  | .hbm, ⟨13, _⟩ => ⟨S_, .i32⟩
  | .hbm, ⟨14, _⟩ => ⟨S1048576x18, .i32⟩
  | .hbm, ⟨15, _⟩ => ⟨S1048576x18, .i1⟩
  | .hbm, ⟨16, _⟩ => ⟨S1048576x18, .f32⟩
  | .hbm, ⟨17, _⟩ => ⟨S_, .f32⟩
  | .hbm, ⟨18, _⟩ => ⟨S1048576x18, .f32⟩
  | .hbm, ⟨19, _⟩ => ⟨S1048576x18, .f32⟩
  | .hbm, ⟨20, _⟩ => ⟨S1048576x18, .f32⟩
  | .hbm, ⟨21, _⟩ => ⟨S1048576x18, .f32⟩
  | .hbm, ⟨22, _⟩ => ⟨S_, .f32⟩
  | .hbm, ⟨23, _⟩ => ⟨S1048576x18, .f32⟩
  | .hbm, ⟨24, _⟩ => ⟨S1048576x18, .f32⟩
  | .hbm, ⟨25, _⟩ => ⟨S1048576x18, .f32⟩
  | .hbm, ⟨26, _⟩ => ⟨S_, .f32⟩
  | .hbm, ⟨27, _⟩ => ⟨S1048576x18, .f32⟩
  | .hbm, ⟨28, _⟩ => ⟨S1048576x18, .f32⟩
  | .hbm, ⟨29, _⟩ => ⟨S1048576x18, .f32⟩
  | .hbm, ⟨30, _⟩ => ⟨S1048576x18, .f32⟩
  | .hbm, ⟨31, _⟩ => ⟨S_, .f32⟩
  | .hbm, ⟨32, _⟩ => ⟨S1048576, .f32⟩
  | .hbm, ⟨33, _⟩ => ⟨S_, .f32⟩
  | .hbm, ⟨34, _⟩ => ⟨S1048576, .f32⟩
  | .hbm, ⟨35, _⟩ => ⟨S1048576, .f32⟩
  | .hbm, ⟨36, _⟩ => ⟨S1048576, .f32⟩
  | .hbm, ⟨37, _⟩ => ⟨S_, .f32⟩
  | .hbm, ⟨38, _⟩ => ⟨S_, .f32⟩
  | .hbm, ⟨39, _⟩ => ⟨S1048576x18, .f32⟩
  | .hbm, ⟨40, _⟩ => ⟨S1048576x18, .f32⟩
  | .hbm, ⟨41, _⟩ => ⟨S1048576x18, .f32⟩
  | .hbm, ⟨42, _⟩ => ⟨S_, .f32⟩
  | .hbm, ⟨43, _⟩ => ⟨S1048576x18, .f32⟩
  | .hbm, ⟨44, _⟩ => ⟨S1048576x18, .f32⟩
  | .hbm, ⟨45, _⟩ => ⟨S1048576x18, .f32⟩
  | .hbm, ⟨46, _⟩ => ⟨S_, .f32⟩
  | .hbm, ⟨47, _⟩ => ⟨S1048576x18, .f32⟩
  | .hbm, ⟨48, _⟩ => ⟨S1048576x18, .f32⟩
  | .hbm, ⟨49, _⟩ => ⟨S1048576x18, .f32⟩
  | .hbm, ⟨50, _⟩ => ⟨S1048576x18, .f32⟩
  | .hbm, ⟨51, _⟩ => ⟨S_, .f32⟩
  | .hbm, ⟨52, _⟩ => ⟨S1048576, .f32⟩
  | .hbm, ⟨53, _⟩ => ⟨S1048576, .f32⟩
  | .hbm, ⟨54, _⟩ => ⟨S_, .f32⟩
  | .hbm, ⟨55, _⟩ => ⟨S_, .f32⟩
  | _, _ => ⟨S1048576x40, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v0 : Ref sig .tc := ⟨.hbm, 4, rfl⟩
abbrev main_v1 : Ref sig .tc := ⟨.hbm, 5, rfl⟩
abbrev main_c_1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_7 : Ref sig .tc := ⟨.hbm, 37, rfl⟩
abbrev main_cst_8 : Ref sig .tc := ⟨.hbm, 38, rfl⟩
abbrev main_call0_v0 : Ref sig .tc := ⟨.hbm, 39, rfl⟩
abbrev main_call0_v1 : Ref sig .tc := ⟨.hbm, 40, rfl⟩
abbrev main_v26 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_10 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_11 : Ref sig .tc := ⟨.hbm, 51, rfl⟩
abbrev main_v34 : Ref sig .tc := ⟨.hbm, 52, rfl⟩
abbrev main_v35 : Ref sig .tc := ⟨.hbm, 53, rfl⟩
abbrev main_cst_12 : Ref sig .tc := ⟨.hbm, 54, rfl⟩
abbrev main_v36 : Ref sig .tc := ⟨.hbm, 55, rfl⟩

abbrev nD : Nat := 1
abbrev τ : Topo := Topo.v7x

variable {F : FTy → Type} [FloatOps F]

class Facts₀ : Prop where
  bcast_S_S18 : S_.BroadcastsInDim S18 (![] : Fin 0 → Fin S18.rank)
  bcast_S18_S18x1_0 : S18.BroadcastsInDim S18x1 (![0] : Fin 1 → Fin S18x1.rank)
  bcast_S_S1048576x18 : S_.BroadcastsInDim S1048576x18 (![] : Fin 0 → Fin S1048576x18.rank)
  reducesTo_S1048576x18_S1048576_d1 : S1048576x18.ReducesTo [1] S1048576
  h_S_ : 0 < S_.numel
  bcast_S_S1048576 : S_.BroadcastsInDim S1048576 (![] : Fin 0 → Fin S1048576.rank)
  reducesTo_S1048576_S_d0 : S1048576.ReducesTo [0] S_
  gather_S1048576x40_S18x1_S1048576x18_0_1_n_n_1_1_10485761_wf : GatherDims.WF S1048576x40 S18x1 S1048576x18 [0] [1] [] [1] [] 1 ![1048576, 1]

variable [Facts₀]

def gather_S1048576x40_S18x1_S1048576x18_0_1_n_n_1_1_10485761 : GatherDims S1048576x40 S18x1 S1048576x18 where
  offsetDims := [0]
  collapsedSliceDims := [1]
  operandBatchingDims := []
  startIndicesBatchingDims := []
  startIndexMap := [1]
  indexVectorDim := 1
  sliceSizes := ![1048576, 1]
  wf := gather_S1048576x40_S18x1_S1048576x18_0_1_n_n_1_1_10485761_wf

class Facts : Prop extends Facts₀ where

variable [Facts]
-- ==== Proof.Spec.lean ====
/-
  The mathematics of the per-sample attribute loss, on extended reals, with every operation the exact one.

  A sample is a row of 18 selected predictions `p j` (columns `sel j` of the 40 attribute scores) and 18 integer
  labels `l j`. With `t = l` read as a number, `pos = (l = 1)`,
    bce j   = t · max (log p) (-100) + (1 - t) · max (log (1 + (-p))) (-100)
    alpha j = 0.8 if pos else 0.2          pt j = 1 - p if pos else p
  the sample's loss is  (Σⱼ alpha j · pt j ²) · (-(Σⱼ bce j) / 18).
  Two texts of it are stated: one squares by a product, negates as `0 - x` and sums from nothing (`rowK`); the
  other squares by the power function with exponent 2, negates by `-x` and sums from an explicit zero (`rowR`).
  They agree as soon as every `p j` is a real number: `x ^ 2 = x · x` on the reals (on the infinities the power
  function has its own conventions, `⊥ ^ 2 = ⊥` while `⊥ · ⊥ = ⊤`), `0 - x = -x` and `0 + x = x` everywhere.
-/
import Idealize.ShloMosaic.PureOps.Ideal
import Idealize.ShloMosaic.PureOps.Ideal.Laws
import Mathlib.Analysis.SpecialFunctions.Pow.Real

noncomputable section

open scoped BigOperators

namespace Cert.AttrLoss

open Idealize.ShloMosaic

/-- The 18 selected attribute columns among the 40. -/
def sel : Fin 18 → Fin 40 := ![4, 8, 9, 11, 13, 14, 15, 16, 17, 18, 20, 22, 23, 26, 29, 30, 31, 36]

/-- The float constants, as the words both programs spell: 0, 1, -100, 18, 0.8, 0.2 (as f32 rounds them), 2. -/
abbrev c0 : EReal := Ideal.ofBits .f32 0x00000000#32
abbrev c1 : EReal := Ideal.ofBits .f32 0x3F800000#32
abbrev cm100 : EReal := Ideal.ofBits .f32 0xC2C80000#32
abbrev c18 : EReal := Ideal.ofBits .f32 0x41900000#32
abbrev c08 : EReal := Ideal.ofBits .f32 0x3F4CCCCD#32
abbrev c02 : EReal := Ideal.ofBits .f32 0x3E4CCCCD#32
abbrev c2 : EReal := Ideal.ofBits .f32 0x40000000#32

/-- The label is the positive class. -/
def isPos (l : BitVec 32) : BitVec 1 := IntOp.cmpi .eq l 1#32

/-- The label as a number. -/
def tgt (l : BitVec 32) : EReal := FloatOps.sitofp (F := Ideal) .f32 l

/-- One attribute's cross-entropy term from the prediction `p`, the label and the NEGATED prediction `np`
    (however the text negates it): both logarithms clamped below at -100. -/
def bce (p : EReal) (l : BitVec 32) (np : EReal) : EReal :=
  tgt l * max (Ideal.log p) cm100 + (c1 - tgt l) * max (Ideal.log1p np) cm100

/-- The class weight: 0.8 on a positive label, 0.2 otherwise. -/
def alpha (l : BitVec 32) : EReal := Scalar.select (isPos l) c08 c02

/-- The probability of the WRONG class: `1 - p` on a positive label, `p` otherwise. -/
def pt (p : EReal) (l : BitVec 32) : EReal := Scalar.select (isPos l) (c1 - p) p

/-- A sample's loss, first text: the square a product, the negations `0 - x`, the sums bare. -/
def rowK (p : Fin 18 → EReal) (l : Fin 18 → BitVec 32) : EReal :=
  (∑ j, alpha (l j) * (pt (p j) (l j) * pt (p j) (l j))) * (c0 - Ideal.div (∑ j, bce (p j) (l j) (c0 - p j)) c18)

/-- A sample's loss, second text: the square a power with exponent 2, the negations `-x`, the sums from zero. -/
def rowR (p : Fin 18 → EReal) (l : Fin 18 → BitVec 32) : EReal :=
  (c0 + ∑ j, alpha (l j) * Ideal.pow (pt (p j) (l j)) c2) * (-(Ideal.div (c0 + ∑ j, bce (p j) (l j) (-(p j))) c18))

/-- The word of 1.0 denotes the real 1. -/
theorem c1_eq : c1 = ((1 : ℝ) : EReal) := by
  simp [Ideal.ofBits, Ideal.ieee, -EReal.coe_mul]; norm_num

/-- The word of 2.0 denotes the real 2. -/
theorem c2_eq : c2 = ((2 : ℝ) : EReal) := by
  simp [Ideal.ofBits, Ideal.ieee, -EReal.coe_mul]; norm_num

/-- The word of +0.0 denotes 0. -/
theorem c0_eq : c0 = 0 := Ideal.ofBits_zero_f32

/-- At a real prediction the wrong-class probability is a real. -/
theorem pt_real (r : ℝ) (l : BitVec 32) : ∃ s : ℝ, pt (r : EReal) l = (s : EReal) := by
  unfold pt Scalar.select
  split
  · exact ⟨1 - r, by rw [c1_eq, ← EReal.coe_sub]⟩
  · exact ⟨r, rfl⟩

/-- On a real, the power with exponent 2 is the product with itself. -/
theorem pow_two_real (s : ℝ) : Ideal.pow (s : EReal) c2 = (s : EReal) * (s : EReal) := by
  rw [c2_eq, Ideal.pow_coe_coe, ← EReal.coe_mul]
  congr 1
  show s ^ (2 : ℝ) = s * s
  rw [Real.rpow_two, sq]

/-- The two texts agree on a sample whose predictions are all real. -/
theorem row_eq (p : Fin 18 → EReal) (l : Fin 18 → BitVec 32) (hp : ∀ j, ∃ r : ℝ, p j = (r : EReal)) :
    rowK p l = rowR p l := by
  unfold rowK rowR
  rw [c0_eq, zero_add, zero_add, zero_sub]
  congr 1
  · refine Finset.sum_congr rfl fun j _ => ?_
    obtain ⟨r, hr⟩ := hp j
    obtain ⟨s, hs⟩ := pt_real r (l j)
    rw [hr, hs, pow_two_real]
  · congr 2
    refine Finset.sum_congr rfl fun j _ => ?_
    rw [zero_sub]

end Cert.AttrLoss

end
-- ==== Proof.LibFullSum.lean ====
import Mathlib.Algebra.BigOperators.Fin
import Mathlib.Algebra.BigOperators.Group.Finset.Basic
import Idealize.ShloMosaic.PureOps.Ideal.Laws
import Idealize.ShloMosaic.Lib.ValueIdx
import Idealize.ShloMosaic.Lib.Pipeline.Value
import Idealize.ShloMosaic.Lib.ValueLayout

/-!
# A block summed down to one number

A vector of extended reals over a rank-3 index set `[B, R, L]` (or a rank-4 one `[B, C, R, L]`) is summed to a single
number in steps: over the leading axis (twice for rank 4), then over the lanes `l`, then over the rows `r`.
Addition of extended reals is commutative and associative, so the result is the plain sum over all coordinates:
`∑ b, ∑ r, ∑ l, x (b, r, l)` (respectively `∑ b, ∑ c, ∑ r, ∑ l, x (b, c, r, l)`).
-/

open scoped BigOperators
open Idealize.ShloMosaic Idealize.ShloMosaic.ValueIdx

namespace Cert.Hand

/-! ## The index with one coordinate put back -/

/-- Rank 4, leading axis: `(b, c, d)` with `a` put back in front is `(a, b, c, d)`. -/
theorem lift0_ix3 {A B C D : Nat} (h : (⟨4, ![A, B, C, D]⟩ : Shape).Reduces [0] (⟨3, ![B, C, D]⟩ : Shape))
    (b : Fin B) (c : Fin C) (d : Fin D) (a : Fin A) : h.lift (ix3 b c d) a = ix4 a b c d := by
  funext k; apply Fin.ext
  fin_cases k <;> rfl

/-- Rank 3, leading axis: `(r, l)` with `b` put back in front is `(b, r, l)`. -/
theorem lift0_ix2 {B R L : Nat} (h : (⟨3, ![B, R, L]⟩ : Shape).Reduces [0] (⟨2, ![R, L]⟩ : Shape))
    (r : Fin R) (l : Fin L) (b : Fin B) : h.lift (ix2 r l) b = ix3 b r l := by
  funext k; apply Fin.ext
  fin_cases k <;> rfl

/-- Rank 2, last axis: `(r)` with the lane `l` put back is `(r, l)`. -/
theorem lift1_ix1 {R L : Nat} (h : (⟨2, ![R, L]⟩ : Shape).Reduces [1] (⟨1, ![R]⟩ : Shape))
    (r : Fin R) (l : Fin L) : h.lift (ix1 r) l = ix2 r l := by
  funext k; apply Fin.ext
  fin_cases k <;> rfl

/-- Rank 2 with a unit second axis, leading axis: `(u)` with the row `r` put back is `(r, u)`. -/
theorem lift0_ix1 {R : Nat} (h : (⟨2, ![R, 1]⟩ : Shape).Reduces [0] (⟨1, ![1]⟩ : Shape))
    (u : Fin 1) (r : Fin R) : h.lift (ix1 u) r = ix2 r u := by
  funext k; apply Fin.ext
  fin_cases k <;> rfl

/-! ## One reduction step at an index -/

section steps
variable (hφ : FKind.Formats .f32) (hacc : (0x00000000#32 : BitVec 32) = FKind.add.neutral .f32 hφ)

/-- Summing a rank-4 vector over its leading axis. -/
theorem reduce0_rank4 {A B C D : Nat} (x : FVec Ideal ⟨4, ![A, B, C, D]⟩ .f32)
    (h : (⟨4, ![A, B, C, D]⟩ : Shape).Reduces [0] (⟨3, ![B, C, D]⟩ : Shape)) (b : Fin B) (c : Fin C) (d : Fin D) :
    multiReduction .add [0] ⟨3, ![B, C, D]⟩ x 0x00000000#32 h hφ hacc (ix3 b c d) = ∑ a : Fin A, x (ix4 a b c d) := by
  refine (Ideal.multiReduction_add_single x _ h hφ hacc (ix3 b c d)).trans ?_
  exact Finset.sum_congr rfl fun a _ => congrArg x (lift0_ix3 h b c d a)

/-- Summing a rank-3 vector over its leading axis. -/
theorem reduce0_rank3 {B R L : Nat} (x : FVec Ideal ⟨3, ![B, R, L]⟩ .f32)
    (h : (⟨3, ![B, R, L]⟩ : Shape).Reduces [0] (⟨2, ![R, L]⟩ : Shape)) (r : Fin R) (l : Fin L) :
    multiReduction .add [0] ⟨2, ![R, L]⟩ x 0x00000000#32 h hφ hacc (ix2 r l) = ∑ b : Fin B, x (ix3 b r l) := by
  refine (Ideal.multiReduction_add_single x _ h hφ hacc (ix2 r l)).trans ?_
  exact Finset.sum_congr rfl fun b _ => congrArg x (lift0_ix2 h r l b)

/-- Summing a rank-2 vector over its lanes. -/
theorem reduce1_rank2 {R L : Nat} (x : FVec Ideal ⟨2, ![R, L]⟩ .f32)
    (h : (⟨2, ![R, L]⟩ : Shape).Reduces [1] (⟨1, ![R]⟩ : Shape)) (r : Fin R) :
    multiReduction .add [1] ⟨1, ![R]⟩ x 0x00000000#32 h hφ hacc (ix1 r) = ∑ l : Fin L, x (ix2 r l) := by
  refine (Ideal.multiReduction_add_single x _ h hφ hacc (ix1 r)).trans ?_
  exact Finset.sum_congr rfl fun l _ => congrArg x (lift1_ix1 h r l)

/-- Summing a one-lane column over its rows. -/
theorem reduce0_col {R : Nat} (x : FVec Ideal ⟨2, ![R, 1]⟩ .f32)
    (h : (⟨2, ![R, 1]⟩ : Shape).Reduces [0] (⟨1, ![1]⟩ : Shape)) (u : Fin 1) :
    multiReduction .add [0] ⟨1, ![1]⟩ x 0x00000000#32 h hφ hacc (ix1 u) = ∑ r : Fin R, x (ix2 r u) := by
  refine (Ideal.multiReduction_add_single x _ h hφ hacc (ix1 u)).trans ?_
  exact Finset.sum_congr rfl fun r _ => congrArg x (lift0_ix1 h u r)

/-- A vector `[R]` viewed as a column `[R, 1]`. -/
theorem shapeCast_col_apply {α : Type} {R : Nat} (x : (⟨1, ![R]⟩ : Shape).Idx → α)
    (h : (⟨1, ![R]⟩ : Shape).ShapeCasts ⟨2, ![R, 1]⟩) (r : Fin R) (u : Fin 1) :
    shapeCast ⟨2, ![R, 1]⟩ x h (ix2 r u) = x (ix1 r) :=
  shapeCast_apply x h _ _ (by
    have hu : u.val = 0 := by omega
    rw [Shape.rowMajor_val_two, Shape.rowMajor_val_one]
    show r.val = r.val * 1 + u.val
    omega)

/-- A one-element vector `[1]` viewed as `[1, 1]`. -/
theorem shapeCast_one_apply {α : Type} (x : (⟨1, ![1]⟩ : Shape).Idx → α)
    (h : (⟨1, ![1]⟩ : Shape).ShapeCasts ⟨2, ![1, 1]⟩) (j : (⟨2, ![1, 1]⟩ : Shape).Idx) :
    shapeCast ⟨2, ![1, 1]⟩ x h j = x (ix1 (0 : Fin 1)) :=
  shapeCast_apply x h _ _ (by
    have h0 : (j 0).val = 0 := by have := (j 0).isLt; simp at this; omega
    have h1 : (j 1).val = 0 := by have := (j 1).isLt; simp at this; omega
    rw [Shape.rowMajor_val_two, Shape.rowMajor_val_one]
    show (0 : Nat) = (j 0).val * 1 + (j 1).val
    omega)

/-! ## The whole chain -/

/-- Lanes, then rows: a `[R, L]` vector summed to one number is the double sum. -/
theorem fullSum2 {R L : Nat} (x : FVec Ideal ⟨2, ![R, L]⟩ .f32)
    (h1 : (⟨2, ![R, L]⟩ : Shape).Reduces [1] (⟨1, ![R]⟩ : Shape))
    (hc : (⟨1, ![R]⟩ : Shape).ShapeCasts ⟨2, ![R, 1]⟩)
    (h2 : (⟨2, ![R, 1]⟩ : Shape).Reduces [0] (⟨1, ![1]⟩ : Shape))
    (hc2 : (⟨1, ![1]⟩ : Shape).ShapeCasts ⟨2, ![1, 1]⟩) (j : (⟨2, ![1, 1]⟩ : Shape).Idx) :
    shapeCast ⟨2, ![1, 1]⟩
      (multiReduction .add [0] ⟨1, ![1]⟩
        (shapeCast ⟨2, ![R, 1]⟩ (multiReduction .add [1] ⟨1, ![R]⟩ x 0x00000000#32 h1 hφ hacc) hc)
        0x00000000#32 h2 hφ hacc) hc2 j
      = ∑ r : Fin R, ∑ l : Fin L, x (ix2 r l) := by
  rw [shapeCast_one_apply, reduce0_col]
  refine Finset.sum_congr rfl fun r _ => ?_
  rw [shapeCast_col_apply, reduce1_rank2]

/-- Leading axis, lanes, rows: a `[B, R, L]` vector summed to one number is the triple sum. -/
theorem fullSum3 {B R L : Nat} (x : FVec Ideal ⟨3, ![B, R, L]⟩ .f32)
    (h0 : (⟨3, ![B, R, L]⟩ : Shape).Reduces [0] (⟨2, ![R, L]⟩ : Shape))
    (h1 : (⟨2, ![R, L]⟩ : Shape).Reduces [1] (⟨1, ![R]⟩ : Shape))
    (hc : (⟨1, ![R]⟩ : Shape).ShapeCasts ⟨2, ![R, 1]⟩)
    (h2 : (⟨2, ![R, 1]⟩ : Shape).Reduces [0] (⟨1, ![1]⟩ : Shape))
    (hc2 : (⟨1, ![1]⟩ : Shape).ShapeCasts ⟨2, ![1, 1]⟩) (j : (⟨2, ![1, 1]⟩ : Shape).Idx) :
    shapeCast ⟨2, ![1, 1]⟩
      (multiReduction .add [0] ⟨1, ![1]⟩
        (shapeCast ⟨2, ![R, 1]⟩ (multiReduction .add [1] ⟨1, ![R]⟩
          (multiReduction .add [0] ⟨2, ![R, L]⟩ x 0x00000000#32 h0 hφ hacc) 0x00000000#32 h1 hφ hacc) hc)
        0x00000000#32 h2 hφ hacc) hc2 j
      = ∑ b : Fin B, ∑ r : Fin R, ∑ l : Fin L, x (ix3 b r l) := by
  rw [fullSum2]
  have e : ∀ r : Fin R, ∀ l : Fin L,
      multiReduction .add [0] ⟨2, ![R, L]⟩ x 0x00000000#32 h0 hφ hacc (ix2 r l) = ∑ b : Fin B, x (ix3 b r l) :=
    fun r l => reduce0_rank3 hφ hacc x h0 r l
  simp only [e]
  calc ∑ r : Fin R, ∑ l : Fin L, ∑ b : Fin B, x (ix3 b r l)
      = ∑ r : Fin R, ∑ b : Fin B, ∑ l : Fin L, x (ix3 b r l) := Finset.sum_congr rfl fun r _ => Finset.sum_comm
    _ = ∑ b : Fin B, ∑ r : Fin R, ∑ l : Fin L, x (ix3 b r l) := Finset.sum_comm

/-- Two leading axes, lanes, rows: a `[B, C, R, L]` vector summed to one number is the fourfold sum. -/
theorem fullSum4 {B C R L : Nat} (x : FVec Ideal ⟨4, ![B, C, R, L]⟩ .f32)
    (h00 : (⟨4, ![B, C, R, L]⟩ : Shape).Reduces [0] (⟨3, ![C, R, L]⟩ : Shape))
    (h0 : (⟨3, ![C, R, L]⟩ : Shape).Reduces [0] (⟨2, ![R, L]⟩ : Shape))
    (h1 : (⟨2, ![R, L]⟩ : Shape).Reduces [1] (⟨1, ![R]⟩ : Shape))
    (hc : (⟨1, ![R]⟩ : Shape).ShapeCasts ⟨2, ![R, 1]⟩)
    (h2 : (⟨2, ![R, 1]⟩ : Shape).Reduces [0] (⟨1, ![1]⟩ : Shape))
    (hc2 : (⟨1, ![1]⟩ : Shape).ShapeCasts ⟨2, ![1, 1]⟩) (j : (⟨2, ![1, 1]⟩ : Shape).Idx) :
    shapeCast ⟨2, ![1, 1]⟩
      (multiReduction .add [0] ⟨1, ![1]⟩
        (shapeCast ⟨2, ![R, 1]⟩ (multiReduction .add [1] ⟨1, ![R]⟩
          (multiReduction .add [0] ⟨2, ![R, L]⟩
            (multiReduction .add [0] ⟨3, ![C, R, L]⟩ x 0x00000000#32 h00 hφ hacc) 0x00000000#32 h0 hφ hacc)
          0x00000000#32 h1 hφ hacc) hc)
        0x00000000#32 h2 hφ hacc) hc2 j
      = ∑ b : Fin B, ∑ c : Fin C, ∑ r : Fin R, ∑ l : Fin L, x (ix4 b c r l) := by
  rw [fullSum3]
  have e : ∀ (c : Fin C) (r : Fin R) (l : Fin L),
      multiReduction .add [0] ⟨3, ![C, R, L]⟩ x 0x00000000#32 h00 hφ hacc (ix3 c r l) = ∑ b : Fin B, x (ix4 b c r l) :=
    fun c r l => reduce0_rank4 hφ hacc x h00 c r l
  simp only [e]
  calc ∑ c : Fin C, ∑ r : Fin R, ∑ l : Fin L, ∑ b : Fin B, x (ix4 b c r l)
      = ∑ c : Fin C, ∑ r : Fin R, ∑ b : Fin B, ∑ l : Fin L, x (ix4 b c r l) :=
        Finset.sum_congr rfl fun c _ => Finset.sum_congr rfl fun r _ => Finset.sum_comm
    _ = ∑ c : Fin C, ∑ b : Fin B, ∑ r : Fin R, ∑ l : Fin L, x (ix4 b c r l) :=
        Finset.sum_congr rfl fun c _ => Finset.sum_comm
    _ = ∑ b : Fin B, ∑ c : Fin C, ∑ r : Fin R, ∑ l : Fin L, x (ix4 b c r l) := Finset.sum_comm

end steps

end Cert.Hand
-- ==== Proof.KTile.lean ====
/-
  One tile of the kernel read as mathematics: over the extended reals, what the body stores into its one-entry
  accumulator — the payload of that store, a function of the tile's 2048 × 40 predictions `x0`, its 2048 × 18
  labels `x1` and the accumulator's previous entry `a` — is `a` plus the sum over the tile's 2048 samples of the
  sample's loss in its first text (`rowK`, Spec.lean).
-/
import proofs.«141493_j40261023433195_1_alg».proof.Proof.Gen.KernelIdeal.Skeleton
import proofs.«141493_j40261023433195_1_alg».proof.Proof.Spec
import proofs.«141493_j40261023433195_1_alg».proof.Proof.LibFullSum
import Idealize.ShloMosaic.PureOps.Ideal.Laws
import Idealize.ShloMosaic.Lib.ValueIdx
import Idealize.ShloMosaic.Lib.Pipeline.Value

noncomputable section

open scoped BigOperators

namespace Cert.KernelIdeal.TileValue

open Idealize.ShloMosaic Idealize.ShloMosaic.ValueIdx
open Cert.KernelIdeal Cert.KernelIdeal.Gen Cert.AttrLoss

/-- One piece of the column gather: the index `(q, k)` of the concatenation falls in piece `k` (every piece is one
    column wide, so `k` columns lie before it), at that piece's only column; the piece is the slice of `x0` at
    column offset `c`, so the element read is `x0 (q, c)`. -/
local macro "col_case" x0:term:max q:term:max k:num c:num : tactic => `(tactic| (
  refine Eq.trans (concatenate_apply_piece (t := S2048x18) (1 : Fin 2) _ _ _ $k (by exact (by decide : $k < 18)) S2048x1
    (extractStridedSlice S2048x1 ![0, $c] $x0) (by rfl) (by rfl) $k (by simp)
    (ix2 $q (0 : Fin 1)) ?_ (by rfl)) ?_
  · intro b hb
    match b, hb with
    | ⟨0, _⟩, _ => rfl
    | ⟨1, _⟩, hb => exact absurd (Fin.ext rfl) hb
  · refine congrArg $x0 (funext fun a => Fin.ext ?_)
    match a with
    | ⟨0, _⟩ => exact Nat.zero_add _
    | ⟨1, _⟩ => rfl))

/-- The 18 gathered columns: column `j` of the gathered block is column `sel j` of the predictions. -/
theorem cols_apply (x0 : Vec Ideal S2048x40 .f32) (q : Fin 2048) (j : Fin 18) :
    k0_pay4 (F := Ideal) x0 (ix2 q j) = x0 (ix2 q (sel j)) := by
  obtain ⟨k, hk⟩ := j
  unfold k0_pay4
  interval_cases k
  · col_case x0 q 0 4
  · col_case x0 q 1 8
  · col_case x0 q 2 9
  · col_case x0 q 3 11
  · col_case x0 q 4 13
  · col_case x0 q 5 14
  · col_case x0 q 6 15
  · col_case x0 q 7 16
  · col_case x0 q 8 17
  · col_case x0 q 9 18
  · col_case x0 q 10 20
  · col_case x0 q 11 22
  · col_case x0 q 12 23
  · col_case x0 q 13 26
  · col_case x0 q 14 29
  · col_case x0 q 15 30
  · col_case x0 q 16 31
  · col_case x0 q 17 36

/-- The per-sample mean of the 18 cross-entropy terms: the lane sum of `t · max (log p) (-100) + (1 - t) · max
    (log1p (0 - p)) (-100)` over the gathered columns, divided by 18. -/
theorem mean_apply (x0 : Vec Ideal S2048x40 .f32) (x1 : Vec Ideal S2048x18 .i32) (q : Fin 2048) (u : Fin 1) :
    k0_pay6 (F := Ideal) x0 x1 (ix2 q u)
      = Ideal.div (∑ j : Fin 18, bce (x0 (ix2 q (sel j))) (x1 (ix2 q j)) (c0 - x0 (ix2 q (sel j)))) c18 := by
  unfold k0_pay6
  refine congrArg (fun z => Ideal.div z c18) ?_
  refine (Cert.Hand.shapeCast_col_apply _ _ q u).trans ?_
  refine (Cert.Hand.reduce1_rank2 _ _ _ _ q).trans ?_
  refine Finset.sum_congr rfl fun j _ => ?_
  show bce (k0_pay4 x0 (ix2 q j)) (x1 (ix2 q j)) (c0 - k0_pay4 x0 (ix2 q j)) = _
  rw [cols_apply]

/-- The per-sample weighted sum of squared wrong-class probabilities: the lane sum of `alpha · (pt · pt)`. -/
theorem focal_apply (x0 : Vec Ideal S2048x40 .f32) (x1 : Vec Ideal S2048x18 .i32) (q : Fin 2048) (j : Fin 18) :
    Scalar.select (k0_pay5 x1 (ix2 q j)) c08 c02
        * (Scalar.select (k0_pay5 x1 (ix2 q j)) (c1 - k0_pay4 (F := Ideal) x0 (ix2 q j)) (k0_pay4 x0 (ix2 q j))
          * Scalar.select (k0_pay5 x1 (ix2 q j)) (c1 - k0_pay4 (F := Ideal) x0 (ix2 q j)) (k0_pay4 x0 (ix2 q j)))
      = alpha (x1 (ix2 q j)) * (pt (x0 (ix2 q (sel j))) (x1 (ix2 q j)) * pt (x0 (ix2 q (sel j))) (x1 (ix2 q j))) := by
  rw [cols_apply]
  rfl

theorem tile_apply (x0 : Vec Ideal S2048x40 .f32) (x1 : Vec Ideal S2048x18 .i32) (a : Vec Ideal S1x1 .f32) (i : S1x1.Idx) :
    k0_pay1 (F := Ideal) (k0_pay4 x0) (k0_pay5 x1) (k0_pay6 x0 x1) a i
      = a i + ∑ q : Fin 2048, rowK (fun j => x0 (ix2 q (sel j))) (fun j => x1 (ix2 q j)) := by
  unfold k0_pay1
  refine (congrFun (shapeCast_self _ _) i).trans ?_
  refine congrArg (fun z => a i + z) ?_
  refine (Cert.Hand.shapeCast_one_apply _ _ i).trans ?_
  refine (Cert.Hand.reduce0_col _ _ _ _ (0 : Fin 1)).trans ?_
  refine Finset.sum_congr rfl fun q _ => ?_
  unfold rowK
  refine (mulf_apply _ _ _).trans ?_
  refine congrArg₂ (fun y z => y * z) ?_ ?_
  · refine (Cert.Hand.shapeCast_col_apply _ _ q (0 : Fin 1)).trans ?_
    refine (Cert.Hand.reduce1_rank2 _ _ _ _ q).trans ?_
    exact Finset.sum_congr rfl fun j _ => focal_apply x0 x1 q j
  · refine (subf_apply _ _ _).trans ?_
    exact congrArg (fun z => c0 - z) (mean_apply x0 x1 q 0)

end Cert.KernelIdeal.TileValue

end
-- ==== Proof.KPieces.lean ====
import proofs.«141493_j40261023433195_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

/-!
  What the kernel body leaves behind at a grid point, read as values of the blocks it was given.

  The body keeps a one-entry accumulator across the 256 points of a core's sweep. At every point it stores into it
  `step x0 x1 a`: the previous entry `a` plus the tile's partial loss, a function of the tile's predictions `x0`
  and labels `x1`. At the first point of a sweep the previous entry is the zero it has just stored; at the other
  points it is what the point before left. At the last point of a sweep the output block is filled with zeros and
  its corner entry overwritten with the accumulator (`lastBlock`).
-/

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- The accumulator after a point, from the tile's two blocks and the accumulator before it. -/
abbrev step (x0 : Vec F S2048x40 .f32) (x1 : Vec F S2048x18 .i32) (a : Vec F S1x1 .f32) : Vec F S1x1 .f32 :=
  k0_pay1 (k0_pay4 x0) (k0_pay5 x1) (k0_pay6 x0 x1) a

/-- The zero entry a sweep's first point stores before accumulating. -/
abbrev zero1 : Vec F S1x1 .f32 := k0_pay3 (F := F)

/-- The output block at a sweep's last point: all zeros, then the corner entry overwritten by the accumulator `s`. -/
def lastBlock (s : Vec F S1x1 .f32) : Vec F S8x128 .f32 :=
  View.canon [(⟨Rect.unit (s := S8x128) ![0, 0] S1x1.size inb_S8x128_S1x1_0_0, s⟩ : View.Piece (Elt F) S8x128 .f32),
    ⟨Rect.unit (s := S8x128) ![0, 0] S8x128.size inb_S8x128_S8x128_0_0, k0_pay2 (F := F)⟩]

/-- First point of a sweep: the accumulator ends at `step` of the zero. -/
theorem sout_A (c : Dev nD) (i : grid0.Coords) (a2 : Memref sig .tc .vmem S2048x40 .f32) (h2 : a2.IsWhole)
    (a3 : Memref sig .tc .vmem S2048x18 .i32) (h3 : a3.IsWhole) (a4 : Memref sig .tc .vmem S8x128 .f32) (h4 : a4.IsWhole)
    (a5 : Memref sig .tc .vmem S1x1 .f32) (h5 : a5.IsWhole) (hc0 : cond0_0 i) (hc1 : ¬cond0_1 i)
    (x0 : Vec F S2048x40 .f32) (x1 : Vec F S2048x18 .i32) :
    sout0_A_0 c i a2 h2 a3 h3 a4 h4 a5 h5 hc0 hc1 x0 x1 = step x0 x1 (zero1 (F := F)) := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S1x1) hz, View.readCov_unit_zero (S := S1x1) _ hz]
  simp only [View.readAt_eq_ld, h2.read_unread, h3.read_unread, View.ld_unit_zero (S := S2048x40) hz,
    View.ld_unit_zero (S := S2048x18) hz]

/-- A middle point: the accumulator ends at `step` of what the point before left. -/
theorem sout_B (c : Dev nD) (i : grid0.Coords) (a2 : Memref sig .tc .vmem S2048x40 .f32) (h2 : a2.IsWhole)
    (a3 : Memref sig .tc .vmem S2048x18 .i32) (h3 : a3.IsWhole) (a4 : Memref sig .tc .vmem S8x128 .f32) (h4 : a4.IsWhole)
    (a5 : Memref sig .tc .vmem S1x1 .f32) (h5 : a5.IsWhole) (hc0 : ¬cond0_0 i) (hc1 : ¬cond0_1 i)
    (x0 : Vec F S2048x40 .f32) (x1 : Vec F S2048x18 .i32) (xs0 : Vec F S1x1 .f32) :
    sout0_B_0 c i a2 h2 a3 h3 a4 h4 a5 h5 hc0 hc1 x0 x1 xs0 = step x0 x1 xs0 := by
  unfold sout0_B_0
  rw [View.read_writes_eq_canon _ _ _ (scover0_B_0 c i a2 h2 a3 h3 a4 h4 a5 h5 hc0 hc1 x0 x1 xs0)]
  unfold kernelRun0_B
  dsimp only
  sl_unfold_words
  rw [View.canon_unit_zero (S := S1x1) hz]
  simp only [View.readAt_eq_ld, h2.read_unread, h3.read_unread, h5.read_unread, View.ld_unit_zero (S := S2048x40) hz,
    View.ld_unit_zero (S := S2048x18) hz, View.ld_unit_zero (S := S1x1) hz]

/-- The last point of a sweep: the accumulator likewise; -/
theorem sout_C (c : Dev nD) (i : grid0.Coords) (a2 : Memref sig .tc .vmem S2048x40 .f32) (h2 : a2.IsWhole)
    (a3 : Memref sig .tc .vmem S2048x18 .i32) (h3 : a3.IsWhole) (a4 : Memref sig .tc .vmem S8x128 .f32) (h4 : a4.IsWhole)
    (a5 : Memref sig .tc .vmem S1x1 .f32) (h5 : a5.IsWhole) (hc0 : ¬cond0_0 i) (hc1 : cond0_1 i)
    (x0 : Vec F S2048x40 .f32) (x1 : Vec F S2048x18 .i32) (xs0 : Vec F S1x1 .f32) :
    sout0_C_0 c i a2 h2 a3 h3 a4 h4 a5 h5 hc0 hc1 x0 x1 xs0 = step x0 x1 xs0 := by
  unfold sout0_C_0
  rw [View.read_writes_eq_canon _ _ _ (scover0_C_0 c i a2 h2 a3 h3 a4 h4 a5 h5 hc0 hc1 x0 x1 xs0)]
  unfold kernelRun0_C
  dsimp only
  sl_unfold_words
  rw [View.canon_unit_zero (S := S1x1) hz]
  simp only [View.readAt_eq_ld, h2.read_unread, h3.read_unread, h5.read_unread, View.ld_unit_zero (S := S2048x40) hz,
    View.ld_unit_zero (S := S2048x18) hz, View.ld_unit_zero (S := S1x1) hz]

/-- and the output block is `lastBlock` of that accumulator. -/
theorem out_C (c : Dev nD) (i : grid0.Coords) (a2 : Memref sig .tc .vmem S2048x40 .f32) (h2 : a2.IsWhole)
    (a3 : Memref sig .tc .vmem S2048x18 .i32) (h3 : a3.IsWhole) (a4 : Memref sig .tc .vmem S8x128 .f32) (h4 : a4.IsWhole)
    (a5 : Memref sig .tc .vmem S1x1 .f32) (h5 : a5.IsWhole) (hc0 : ¬cond0_0 i) (hc1 : cond0_1 i)
    (x0 : Vec F S2048x40 .f32) (x1 : Vec F S2048x18 .i32) (xs0 : Vec F S1x1 .f32) :
    out0_C_2 c i a2 h2 a3 h3 a4 h4 a5 h5 hc0 hc1 x0 x1 xs0 = lastBlock (step x0 x1 xs0) := by
  unfold out0_C_2
  rw [View.read_writes_eq_canon _ _ _ (cover0_C_2 c i a2 h2 a3 h3 a4 h4 a5 h5 hc0 hc1 x0 x1 xs0)]
  unfold kernelRun0_C
  dsimp only
  sl_unfold_words
  rw [View.readCov_unit_zero (S := S1x1) _ hz]
  simp only [View.readAt_eq_ld, h2.read_unread, h3.read_unread, h5.read_unread, View.ld_unit_zero (S := S2048x40) hz,
    View.ld_unit_zero (S := S2048x18) hz, View.ld_unit_zero (S := S1x1) hz]
  rfl

end Cert.KernelIdeal.Pieces

end
-- ==== Proof.LibSums.lean ====
import Mathlib.Algebra.BigOperators.Fin
import Mathlib.Algebra.BigOperators.Group.Finset.Basic
import Mathlib.Data.Fintype.BigOperators
import Mathlib.Logic.Equiv.Fin.Basic
import Mathlib.Tactic.Ring
import Idealize.ShloMosaic.Lib.ValueIdx
import Idealize.ShloMosaic.Lib.Pipeline.Value

/-!
# Regrouping finite sums

Bookkeeping about finite sums in an additive commutative monoid `M` (only commutativity and associativity of `+` are
used, so every statement holds in the extended reals).

* `sum_rowMajor`: a double sum over `r < R`, `l < L` of a function of the row-major position `r·L + l` is the single
  sum over the positions `p < R·L`.
* `sum_blocks`, `sum_blocks_of_eq`: a sum over `N = nb·bs` rows taken block by block, row `= bs·s + b`.
* `sum_reshape`: two row-major readings `[R, L]` and `[H, W]` of the same `R·L = H·W` positions give the same sum.
* `sum_chan_last`, `sum_chan_first`: the channel sum of a `[B, C, H, W]` family moved innermost and back
  (the transpose between channel-second and channel-last order).
* `shapeCast_inner_apply`: a row-major reshape of the two inner axes `[B, C, H, W] → [B, C, R, L]` read at an index.
-/

open scoped BigOperators
open Idealize.ShloMosaic Idealize.ShloMosaic.ValueIdx

namespace Cert.Hand

variable {M : Type*} [AddCommMonoid M]

/-! ## Row-major positions -/

/-- The double sum over `(r, l)` of a function of the position `r·L + l` is the sum over all positions below `R·L`. -/
theorem sum_rowMajor (R L : Nat) (g : ℕ → M) :
    ∑ r : Fin R, ∑ l : Fin L, g (r.val * L + l.val) = ∑ p : Fin (R * L), g p.val := by
  rw [← Equiv.sum_comp finProdFinEquiv (fun p : Fin (R * L) => g p.val), Fintype.sum_prod_type]
  refine Finset.sum_congr rfl fun r _ => Finset.sum_congr rfl fun l _ => ?_
  congr 1
  show r.val * L + l.val = l.val + L * r.val
  rw [Nat.mul_comm, Nat.add_comm]

/-- Equal bounds, equal sums. -/
theorem sum_fin_of_eq {N N' : Nat} (e : N = N') (g : ℕ → M) : ∑ p : Fin N, g p.val = ∑ p : Fin N', g p.val := by
  subst e; rfl

/-- Two row-major readings of the same positions: `R·L = H·W`, position `r·L + l` on one side and `h·W + w` on the other. -/
theorem sum_reshape {R L H W : Nat} (e : R * L = H * W) (g : ℕ → M) :
    ∑ r : Fin R, ∑ l : Fin L, g (r.val * L + l.val) = ∑ h : Fin H, ∑ w : Fin W, g (h.val * W + w.val) := by
  rw [sum_rowMajor, sum_rowMajor, sum_fin_of_eq e]

/-! ## Rows in blocks -/

/-- `nb·bs` rows taken as `nb` blocks of `bs` rows: row `= bs·s + b`. -/
theorem sum_blocks (nb bs : Nat) (g : ℕ → M) :
    ∑ k : Fin (nb * bs), g k.val = ∑ s : Fin nb, ∑ b : Fin bs, g (bs * s.val + b.val) := by
  rw [← sum_rowMajor nb bs g]
  refine Finset.sum_congr rfl fun s _ => Finset.sum_congr rfl fun b _ => ?_
  rw [Nat.mul_comm]

/-- The same with the number of rows given by an equation `N = nb·bs`. -/
theorem sum_blocks_of_eq {N : Nat} (nb bs : Nat) (e : N = nb * bs) (g : ℕ → M) :
    ∑ k : Fin N, g k.val = ∑ s : Fin nb, ∑ b : Fin bs, g (bs * s.val + b.val) := by
  rw [sum_fin_of_eq e, sum_blocks]

/-- A function of the row itself (not only of its number): row `⟨bs·s + b, _⟩`. -/
theorem sum_blocks_fin {N : Nat} (nb bs : Nat) (e : N = nb * bs) (f : Fin N → M) :
    ∑ k : Fin N, f k = ∑ s : Fin nb, ∑ b : Fin bs,
      f ⟨bs * s.val + b.val, by
        have hs := s.isLt; have hb := b.isLt
        calc bs * s.val + b.val < bs * s.val + bs := by omega
          _ = bs * (s.val + 1) := by ring
          _ ≤ bs * nb := Nat.mul_le_mul_left _ hs
          _ = N := by rw [e, Nat.mul_comm]⟩ := by
  have key := sum_blocks_of_eq nb bs e (fun k => if h : k < N then f ⟨k, h⟩ else 0)
  have lhs : ∑ k : Fin N, (fun k => if h : k < N then f ⟨k, h⟩ else 0) k.val = ∑ k : Fin N, f k :=
    Finset.sum_congr rfl fun k _ => by simp only [k.isLt, dite_true]
  rw [← lhs, key]
  refine Finset.sum_congr rfl fun s _ => Finset.sum_congr rfl fun b _ => ?_
  have hlt : bs * s.val + b.val < N := by
    have hs := s.isLt; have hb := b.isLt
    calc bs * s.val + b.val < bs * s.val + bs := by omega
      _ = bs * (s.val + 1) := by ring
      _ ≤ bs * nb := Nat.mul_le_mul_left _ hs
      _ = N := by rw [e, Nat.mul_comm]
  simp only [hlt, dite_true]

/-! ## The channel sum moved innermost -/

/-- `∑ b, ∑ c, ∑ h, ∑ w` = `∑ b, ∑ h, ∑ w, ∑ c`: channel-second order against channel-last order. -/
theorem sum_chan_last {β γ η ω : Type*} [Fintype β] [Fintype γ] [Fintype η] [Fintype ω] (f : β → γ → η → ω → M) :
    ∑ b, ∑ c, ∑ h, ∑ w, f b c h w = ∑ b, ∑ h, ∑ w, ∑ c, f b c h w := by
  refine Finset.sum_congr rfl fun b _ => ?_
  rw [Finset.sum_comm]
  refine Finset.sum_congr rfl fun h _ => ?_
  rw [Finset.sum_comm]

/-- The other direction. -/
theorem sum_chan_first {β γ η ω : Type*} [Fintype β] [Fintype γ] [Fintype η] [Fintype ω] (f : β → γ → η → ω → M) :
    ∑ b, ∑ h, ∑ w, ∑ c, f b c h w = ∑ b, ∑ c, ∑ h, ∑ w, f b c h w :=
  (sum_chan_last f).symm

/-! ## A reshape of the two inner axes, read at an index -/

/-- `[B, C, H, W]` viewed as `[B, C, R, L]` with `R·L = H·W`: the entry at `(b, c, r, l)` is the entry at `(b, c, h, w)`
    whenever the inner positions agree, `r·L + l = h·W + w`. -/
theorem shapeCast_inner_apply {α : Type} {B C H W R L : Nat} (x : (⟨4, ![B, C, H, W]⟩ : Shape).Idx → α)
    (hs : (⟨4, ![B, C, H, W]⟩ : Shape).ShapeCasts ⟨4, ![B, C, R, L]⟩) (e : R * L = H * W)
    (b : Fin B) (c : Fin C) (r : Fin R) (l : Fin L) (h : Fin H) (w : Fin W) (hp : r.val * L + l.val = h.val * W + w.val) :
    shapeCast ⟨4, ![B, C, R, L]⟩ x hs (ix4 b c r l) = x (ix4 b c h w) :=
  shapeCast_apply x hs _ _ (by
    rw [Shape.rowMajor_val_four, Shape.rowMajor_val_four]
    show (((b.val * C + c.val) * H + h.val) * W + w.val) = (((b.val * C + c.val) * R + r.val) * L + l.val)
    have e1 : ((b.val * C + c.val) * H + h.val) * W + w.val = (b.val * C + c.val) * (H * W) + (h.val * W + w.val) := by ring
    have e2 : ((b.val * C + c.val) * R + r.val) * L + l.val = (b.val * C + c.val) * (R * L) + (r.val * L + l.val) := by ring
    rw [e1, e2, e, hp])

end Cert.Hand
-- ==== Proof.KAccum.lean ====
import proofs.«141493_j40261023433195_1_alg».proof.Proof.KPieces
import proofs.«141493_j40261023433195_1_alg».proof.Proof.Spec
import proofs.«141493_j40261023433195_1_alg».proof.Proof.LibSums
import Idealize.ShloMosaic.Lib.Pipeline.Value
import Idealize.ShloMosaic.Lib.ValueIdx
import Idealize.ShloMosaic.PureOps.Ideal.Laws
import Idealize.ShloMosaic.Lib.StableHlo.Run
import Idealize.ShloMosaic.Lib.Tactic

/-!
  The idealized kernel's result, over the extended reals.

  The grid has 512 points: two sweeps of 256 tiles of 2048 samples. Point `t` reads rows `2048 t … 2048 t + 2047` of
  both arrays. A sweep's accumulator starts from zero at its first point and gains each tile's partial loss
  (`tileLoss`: the sum of `rowK` over the tile's samples); after the sweep's last point it holds zero plus the sum
  of its 256 tiles. That point writes an 8 × 128 block whose corner is the accumulator and whose other entries are
  zero; the two blocks fill the 16 × 128 output array, and the host sums that array from zero. So the result is
  zero plus the two sweeps' sums, which is zero plus the sum of `rowK` over all 1,048,576 samples.
-/

set_option maxRecDepth 16384

noncomputable section

open scoped BigOperators
open Idealize.ShloMosaic Idealize.ShloMosaic.TcCoe Idealize.SL.Sem
open Idealize.ShloMosaic.Pipeline (Dat)

namespace Cert.KernelIdeal.AccValue

open Cert.KernelIdeal Cert.KernelIdeal.Gen Cert.KernelIdeal.Pieces Cert.AttrLoss Idealize.ShloMosaic.ValueIdx

variable (m : (ℓ : Loc nD τ sig) → Buf (Elt Ideal) ℓ) (ρ : Dev nD → PrngReg)

/-- The tile law: the accumulator's new entry is its old entry plus the sum of `rowK` over the tile's samples. -/
def TileLaw : Prop :=
  ∀ (x0 : Vec Ideal S2048x40 .f32) (x1 : Vec Ideal S2048x18 .i32) (a : Vec Ideal S1x1 .f32) (i : S1x1.Idx),
    step (F := Ideal) x0 x1 a i = a i + ∑ q : Fin 2048, rowK (fun j => x0 (ix2 q (sel j))) (fun j => x1 (ix2 q j))

/-- The two argument arrays and a point's two blocks, at their literal types. -/
abbrev xarr (c : Dev nD) : FVec Ideal S1048576x40 .f32 := m ((c : Thread nD τ).loc main_arg0)
abbrev larr (c : Dev nD) : IVec S1048576x18 32 := m ((c : Thread nD τ).loc main_arg1)
abbrev xblk (c : Dev nD) (t : Fin cfg0.N) : Vec Ideal S2048x40 .f32 := iblk m c 0 t
abbrev lblk (c : Dev nD) (t : Fin cfg0.N) : Vec Ideal S2048x18 .i32 := iblk m c 1 t

/-- Point `t` reads block row `t` of both inputs and writes block row `t / 256` of the output. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val / 256 ∧ win0_2.index t (1 : Fin 2) = 0 :=
  (by decide +kernel : ∀ t : Fin grid0.N, _)

theorem lt512 (t : Fin cfg0.N) : t.val < 512 := lt_of_lt_of_eq t.isLt (show cfg0.N = 512 from N_0)

/-- Entry `(q, k)` of point `t`'s prediction block is entry `(2048 t + q, k)` of the array. -/
theorem xblk_apply (c : Dev nD) (t : Fin cfg0.N) (q : Fin 2048) (k : Fin 40) :
    xblk m c t (ix2 q k) = xarr m c (ix2 ⟨2048 * t.val + q.val, by have := lt512 t; have := q.isLt; omega⟩ k) := by
  obtain ⟨e0, e1, -⟩ := idx_facts t
  show iblk m c 0 t (ix2 q k) = _
  unfold iblk
  rw [View.read_apply]
  show V m c main_arg0 _ = m ((c : Thread nD τ).loc main_arg0) _
  rw [V_main_arg0]
  congr 1
  funext a; apply Fin.ext
  match a with
  | ⟨0, _⟩ => show win0_0.index t (0 : Fin 2) * 2048 + 1 * q.val = 2048 * t.val + q.val; rw [e0]; omega
  | ⟨1, _⟩ => show win0_0.index t (1 : Fin 2) * 40 + 1 * k.val = k.val; rw [e1]; omega

/-- Entry `(q, j)` of point `t`'s label block is entry `(2048 t + q, j)` of the array. -/
theorem lblk_apply (c : Dev nD) (t : Fin cfg0.N) (q : Fin 2048) (j : Fin 18) :
    lblk m c t (ix2 q j) = larr m c (ix2 ⟨2048 * t.val + q.val, by have := lt512 t; have := q.isLt; omega⟩ j) := by
  obtain ⟨-, -, e0, e1, -⟩ := idx_facts t
  show iblk m c 1 t (ix2 q j) = _
  unfold iblk
  rw [View.read_apply]
  show V m c main_arg1 _ = m ((c : Thread nD τ).loc main_arg1) _
  rw [V_main_arg1]
  congr 1
  funext a; apply Fin.ext
  match a with
  | ⟨0, _⟩ => show win0_1.index t (0 : Fin 2) * 2048 + 1 * q.val = 2048 * t.val + q.val; rw [e0]; omega
  | ⟨1, _⟩ => show win0_1.index t (1 : Fin 2) * 18 + 1 * j.val = j.val; rw [e1]; omega

/-- Sample `r`'s loss, in the kernel's text. -/
def rowLoss (c : Dev nD) (r : Fin 1048576) : EReal :=
  rowK (fun j => xarr m c (ix2 r (sel j))) (fun j => larr m c (ix2 r j))

/-- Tile `t`'s partial loss: the sum over its 2048 samples. -/
def tileLoss (c : Dev nD) (t : Fin 512) : EReal :=
  ∑ q : Fin 2048, rowLoss m c ⟨2048 * t.val + q.val, by have := t.isLt; have := q.isLt; omega⟩

/-- The tile law at point `t`'s blocks. -/
theorem step_apply (hT : TileLaw) (c : Dev nD) (t : Fin cfg0.N) (a : Vec Ideal S1x1 .f32) (i : S1x1.Idx) :
    step (F := Ideal) (xblk m c t) (lblk m c t) a i = a i + tileLoss m c ⟨t.val, lt512 t⟩ := by
  refine (hT (xblk m c t) (lblk m c t) a i).trans (congrArg (a i + ·) ?_)
  unfold tileLoss rowLoss
  exact Finset.sum_congr rfl fun q _ =>
    congrArg₂ rowK (funext fun j => xblk_apply m c t q (sel j)) (funext fun j => lblk_apply m c t q j)

/-- The zero entry is zero. -/
theorem zero1_apply (i : S1x1.Idx) : zero1 (F := Ideal) i = c0 := rfl

/-- A tile's partial loss by its number (zero past the grid). -/
def partN (c : Dev nD) (n : ℕ) : EReal := if h : n < 512 then tileLoss m c ⟨n, h⟩ else 0

/-- The accumulator after point `n`: from zero at a sweep's first point, else what the point before left, plus the tile. -/
def accN (c : Dev nD) : ℕ → EReal
  | 0 => c0 + partN m c 0
  | n + 1 => if (n + 1) % 256 = 0 then c0 + partN m c (n + 1) else accN c n + partN m c (n + 1)

theorem accN_reset (c : Dev nD) (n : ℕ) (h : n % 256 = 0) : accN m c n = c0 + partN m c n := by
  cases n with
  | zero => rfl
  | succ n => show (if (n + 1) % 256 = 0 then _ else _) = _; rw [if_pos h]

theorem accN_step (c : Dev nD) (n : ℕ) (h : ¬(n + 1) % 256 = 0) : accN m c (n + 1) = accN m c n + partN m c (n + 1) := by
  show (if (n + 1) % 256 = 0 then _ else _) = _; rw [if_neg h]

/-- Within a sweep the accumulator is zero plus the tiles so far. -/
theorem accN_sweep (c : Dev nD) (k : ℕ) : ∀ s : ℕ, s < 256 →
    accN m c (256 * k + s) = c0 + ∑ u ∈ Finset.range (s + 1), partN m c (256 * k + u)
  | 0, _ => by
    rw [accN_reset m c _ (by omega), Finset.sum_range_one]
  | s + 1, hs => by
    rw [show 256 * k + (s + 1) = (256 * k + s) + 1 from rfl, accN_step m c _ (by omega), accN_sweep c k s (by omega),
      Finset.sum_range_succ _ (s + 1), add_assoc]
    rfl

/-- WHAT THE ACCUMULATOR HOLDS after point `n`: by induction on the point, the three control cases read as values. -/
theorem acc_eq (hT : TileLaw) (c : Dev nD) : ∀ (n : ℕ) (hn : n < cfg0.N) (i : S1x1.Idx), (outsAt0 m c n hn).2 i = accN m c n
  | 0, hn, i => by
    have h0 : (⟨0, hn⟩ : Fin cfg0.N).val % 256 = 0 := rfl
    have h1 : ¬(⟨0, hn⟩ : Fin cfg0.N).val % 256 = 255 := by show ¬(0 : ℕ) % 256 = 255; decide
    rw [outsAt0_A m c ⟨0, hn⟩ h0 h1]
    dsimp only
    refine (congrFun (sout_A (F := Ideal) c (grid0.coords ⟨0, hn⟩) (ms0_0 ⟨0, hn⟩) (hs0_0 ⟨0, hn⟩) (ms0_1 ⟨0, hn⟩) (hs0_1 ⟨0, hn⟩)
      (ms0_2 ⟨0, hn⟩) (hs0_2 ⟨0, hn⟩) scM0_0 (Memref.isWhole_whole _) ((hcond0_0 ⟨0, hn⟩).mpr h0) (fun h => h1 ((hcond0_1 ⟨0, hn⟩).mp h))
      (iblk m c 0 ⟨0, hn⟩) (iblk m c 1 ⟨0, hn⟩)) i).trans ?_
    refine (step_apply m hT c ⟨0, hn⟩ (zero1 (F := Ideal)) i).trans ?_
    rw [zero1_apply]
    show c0 + tileLoss m c ⟨0, _⟩ = c0 + partN m c 0
    unfold partN; rw [dif_pos (by decide : (0 : ℕ) < 512)]
  | n + 1, hn, i => by
    have hN : n + 1 < 512 := lt512 ⟨n + 1, hn⟩
    have hp : tileLoss m c ⟨n + 1, hN⟩ = partN m c (n + 1) := by unfold partN; rw [dif_pos hN]
    by_cases h0 : (n + 1) % 256 = 0
    · have h1 : ¬(n + 1) % 256 = 255 := by omega
      rw [outsAt0_A m c ⟨n + 1, hn⟩ h0 h1]
      dsimp only
      refine (congrFun (sout_A (F := Ideal) c (grid0.coords ⟨n + 1, hn⟩) (ms0_0 ⟨n + 1, hn⟩) (hs0_0 ⟨n + 1, hn⟩) (ms0_1 ⟨n + 1, hn⟩) (hs0_1 ⟨n + 1, hn⟩)
        (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h))
        (iblk m c 0 ⟨n + 1, hn⟩) (iblk m c 1 ⟨n + 1, hn⟩)) i).trans ?_
      refine (step_apply m hT c ⟨n + 1, hn⟩ (zero1 (F := Ideal)) i).trans ?_
      rw [zero1_apply, accN_reset m c _ h0]
      exact congrArg (c0 + ·) hp
    · have ih := acc_eq hT c n (Nat.lt_of_succ_lt hn) i
      by_cases h1 : (n + 1) % 256 = 255
      · rw [outsAt0_C m c ⟨n + 1, hn⟩ h0 h1]
        dsimp only
        refine (congrFun (sout_C (F := Ideal) c (grid0.coords ⟨n + 1, hn⟩) (ms0_0 ⟨n + 1, hn⟩) (hs0_0 ⟨n + 1, hn⟩) (ms0_1 ⟨n + 1, hn⟩) (hs0_1 ⟨n + 1, hn⟩)
          (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1)
          (iblk m c 0 ⟨n + 1, hn⟩) (iblk m c 1 ⟨n + 1, hn⟩) (outsAt0 m c n (Nat.lt_of_succ_lt hn)).2) i).trans ?_
        refine (step_apply m hT c ⟨n + 1, hn⟩ _ i).trans ?_
        rw [accN_step m c n h0, ← hp]
        exact congrArg (· + _) ih
      · rw [outsAt0_B m c ⟨n + 1, hn⟩ h0 h1]
        dsimp only
        refine (congrFun (sout_B (F := Ideal) c (grid0.coords ⟨n + 1, hn⟩) (ms0_0 ⟨n + 1, hn⟩) (hs0_0 ⟨n + 1, hn⟩) (ms0_1 ⟨n + 1, hn⟩) (hs0_1 ⟨n + 1, hn⟩)
          (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h))
          (iblk m c 0 ⟨n + 1, hn⟩) (iblk m c 1 ⟨n + 1, hn⟩) (outsAt0 m c n (Nat.lt_of_succ_lt hn)).2) i).trans ?_
        refine (step_apply m hT c ⟨n + 1, hn⟩ _ i).trans ?_
        rw [accN_step m c n h0, ← hp]
        exact congrArg (· + _) ih

/-! ## The output array -/

/-- The last point's block at an entry: the accumulator at the corner, zero elsewhere. -/
theorem lastBlock_apply (s : Vec Ideal S1x1 .f32) (y : S8x128.Idx) :
    lastBlock (F := Ideal) s y = if (y 0).val = 0 ∧ (y 1).val = 0 then s (ix2 (0 : Fin 1) (0 : Fin 1)) else c0 := by
  unfold lastBlock
  by_cases h : (y 0).val = 0 ∧ (y 1).val = 0
  · rw [if_pos h]
    have hy : y = (Rect.unit (s := S8x128) ![0, 0] S1x1.size inb_S8x128_S1x1_0_0).emb (ix2 (0 : Fin 1) (0 : Fin 1)) := by
      funext a; apply Fin.ext
      match a with
      | ⟨0, _⟩ => show (y 0).val = 0 + 1 * 0; omega
      | ⟨1, _⟩ => show (y 1).val = 0 + 1 * 0; omega
    rw [hy, View.canon_cons_emb]
  · have hm : y ∉ (Rect.unit (s := S8x128) ![0, 0] S1x1.size inb_S8x128_S1x1_0_0).set := by
      rw [Rect.mem_set_unit]
      intro hm
      have h0 : (0 : ℕ) ≤ (y 0).val ∧ (y 0).val < 0 + 1 := hm 0
      have h1 : (0 : ℕ) ≤ (y 1).val ∧ (y 1).val < 0 + 1 := hm 1
      exact h ⟨by omega, by omega⟩
    rw [if_neg h, View.canon_cons_of_not_mem _ _ hm, View.canon_unit_zero (S := S8x128) hz]
    rfl

/-- The output array after the run: at the corner of block row `k` the accumulator after sweep `k`, zero elsewhere. -/
def outFn (c : Dev nD) : S16x128.Idx → EReal := fun i =>
  if (i 0).val % 8 = 0 ∧ (i 1).val = 0 then accN m c (256 * ((i 0).val / 8) + 255) else c0

abbrev outArr (c : Dev nD) : Buf (Elt Ideal) ((c : Thread nD τ).loc main_v0) := outFn m c

/-- WHAT A SWEEP'S LAST POINT WRITES BACK is its block of `outArr`. -/
theorem flushed_eq (hT : TileLaw) (c : Dev nD) (t : Fin cfg0.N) (hf : (cfg0.win 2).flush t = true) :
    (dats m 0 c).flushed 2 t = ((cfg0.win 2).blk t).view.read (Elt Ideal) (outArr m c) := by
  have h255 : t.val % 256 = 255 := (flush0_2 t).mp hf
  have h0 : ¬t.val % 256 = 0 := by omega
  obtain ⟨-, -, -, -, e0, e1⟩ := idx_facts t
  have hacc : ∀ i : S1x1.Idx, step (F := Ideal) (iblk m c 0 t) (iblk m c 1 t)
      (outsAt0 m c (t.val - 1) (Nat.lt_of_le_of_lt (Nat.sub_le _ _) t.isLt)).2 i = accN m c t.val := by
    intro i
    have := acc_eq m hT c t.val t.isLt i
    rw [outsAt0_C m c t h0 h255] at this
    dsimp only at this
    rw [sout_C (F := Ideal) c (grid0.coords t) (ms0_0 t) (hs0_0 t) (ms0_1 t) (hs0_1 t) (ms0_2 t) (hs0_2 t) scM0_0 (Memref.isWhole_whole _)
      (fun h => h0 ((hcond0_0 t).mp h)) ((hcond0_1 t).mpr h255) (iblk m c 0 t) (iblk m c 1 t)
      (outsAt0 m c (t.val - 1) (Nat.lt_of_le_of_lt (Nat.sub_le _ _) t.isLt)).2] at this
    exact this
  show (cfg0.win 2).cut (grid0.coords t) ((dats m 0 c).after 2 t) = _
  rw [after0_2, outsAt0_C m c t h0 h255]
  dsimp only
  rw [out_C (F := Ideal) c (grid0.coords t) (ms0_0 t) (hs0_0 t) (ms0_1 t) (hs0_1 t) (ms0_2 t) (hs0_2 t) scM0_0 (Memref.isWhole_whole _)
      (fun h => h0 ((hcond0_0 t).mp h)) ((hcond0_1 t).mpr h255) (iblk m c 0 t) (iblk m c 1 t)
      (outsAt0 m c (t.val - 1) (Nat.lt_of_le_of_lt (Nat.sub_le _ _) t.isLt)).2]
  funext y
  show lastBlock (F := Ideal) (step (F := Ideal) (iblk m c 0 t) (iblk m c 1 t)
      (outsAt0 m c (t.val - 1) (Nat.lt_of_le_of_lt (Nat.sub_le _ _) t.isLt)).2) y
    = outFn m c (((cfg0.win 2).blk t).view.emb y)
  rw [lastBlock_apply, hacc]
  have c0' : ((((cfg0.win 2).blk t).view.emb y) 0).val = win0_2.index t (0 : Fin 2) * 8 + 1 * (y 0).val := rfl
  have c1' : ((((cfg0.win 2).blk t).view.emb y) 1).val = win0_2.index t (1 : Fin 2) * 128 + 1 * (y 1).val := rfl
  have hy0 : (y 0).val < 8 := (y 0).isLt
  unfold outFn
  rw [c0', c1', e0, e1]
  by_cases h : (y 0).val = 0 ∧ (y 1).val = 0
  · rw [if_pos h, if_pos ⟨by omega, by omega⟩]
    exact congrArg (accN m c) (by omega)
  · rw [if_neg h, if_neg (fun h' => h ⟨by omega, by omega⟩)]

/-- An index of the output array is in point `t`'s block iff each coordinate is in the block's range. -/
theorem mem_blk (t : Fin cfg0.N) (i : S16x128.Idx) :
    i ∈ ((cfg0.win 2).blk t).view.set ↔ ∀ a : Fin 2, win0_2.index t a * S8x128.size a ≤ (i a).val ∧ (i a).val < win0_2.index t a * S8x128.size a + S8x128.size a := by
  show i ∈ ((View.whole main_v0).slice (win0_2.rect t)).set ↔ _
  rw [View.set_slice_whole, Rect.mem_set_unit]
  exact Iff.rfl

/-- Every entry of the output array is in the block of the last point of its sweep. -/
theorem cover (i : S16x128.Idx) :
    ∃ t : Fin cfg0.N, (cfg0.win 2).flush t = true ∧ i ∈ ((cfg0.win 2).blk t).view.set := by
  have hi0 : (i 0).val < 16 := (i 0).isLt
  have hi1 : (i 1).val < 128 := (i 1).isLt
  have hN : cfg0.N = 512 := N_0
  let t : Fin cfg0.N := ⟨256 * ((i 0).val / 8) + 255, by rw [hN]; omega⟩
  have htv : t.val = 256 * ((i 0).val / 8) + 255 := rfl
  obtain ⟨-, -, -, -, e0, e1⟩ := idx_facts t
  refine ⟨t, (flush0_2 t).mpr (by rw [htv]; omega), ?_⟩
  rw [mem_blk]
  intro a
  match a with
  | ⟨0, _⟩ => show win0_2.index t (0 : Fin 2) * 8 ≤ (i 0).val ∧ (i 0).val < win0_2.index t (0 : Fin 2) * 8 + 8; rw [e0, htv]; omega
  | ⟨1, _⟩ => show win0_2.index t (1 : Fin 2) * 128 ≤ (i 1).val ∧ (i 1).val < win0_2.index t (1 : Fin 2) * 128 + 128; rw [e1]; omega

/-- THE OUTPUT ARRAY after the run. -/
theorem final (hT : TileLaw) (c : Dev nD) : (dats m 0 c).arrAt 2 cfg0.N = outArr m c :=
  (dats m 0 c).arrAt_eq_of_cover 2 (outArr m c) (flushed_eq m hT c) (cover)

/-! ## The array's total, and the host's sum of it -/

/-- The output array sums to the two sweeps' accumulators. -/
theorem sum_outFn (c : Dev nD) : ∑ i : S16x128.Idx, outFn m c i = accN m c 255 + accN m c 511 := by
  have inner : ∀ a : Fin 16, ∑ b : Fin 128, outFn m c (ix2 a b)
      = if a.val % 8 = 0 then accN m c (256 * (a.val / 8) + 255) else 0 := by
    intro a
    refine (Finset.sum_eq_single (0 : Fin 128) (fun b _ hb => ?_) (fun h => absurd (Finset.mem_univ _) h)).trans ?_
    · show (if a.val % 8 = 0 ∧ b.val = 0 then accN m c (256 * (a.val / 8) + 255) else c0) = 0
      rw [if_neg (fun h' => hb (Fin.ext h'.2)), c0_eq]
    · show (if a.val % 8 = 0 ∧ (0 : ℕ) = 0 then accN m c (256 * (a.val / 8) + 255) else c0) = _
      by_cases h : a.val % 8 = 0
      · rw [if_pos ⟨h, rfl⟩, if_pos h]
      · rw [if_neg (fun h' => h h'.1), if_neg h, c0_eq]
  have inner2 : ∀ k : Fin 2, ∑ r : Fin 8,
      (fun a : Fin 16 => if a.val % 8 = 0 then accN m c (256 * (a.val / 8) + 255) else 0)
        ⟨8 * k.val + r.val, by have := k.isLt; have := r.isLt; omega⟩ = accN m c (256 * k.val + 255) := by
    intro k
    refine (Finset.sum_eq_single (0 : Fin 8) (fun r _ hr => ?_) (fun h => absurd (Finset.mem_univ _) h)).trans ?_
    · show (if (8 * k.val + r.val) % 8 = 0 then accN m c (256 * ((8 * k.val + r.val) / 8) + 255) else (0 : EReal)) = 0
      have hr0 : r.val ≠ 0 := fun h => hr (Fin.ext h)
      rw [if_neg (by have := r.isLt; omega)]
    · show (if (8 * k.val + 0) % 8 = 0 then accN m c (256 * ((8 * k.val + 0) / 8) + 255) else (0 : EReal)) = _
      rw [if_pos (by omega)]
      exact congrArg (accN m c) (by omega)
  rw [sum_idx2, Finset.sum_congr rfl fun a _ => inner a, Cert.Hand.sum_blocks_fin 2 8 (by norm_num : 16 = 2 * 8),
    Finset.sum_congr rfl fun k _ => inner2 k, Fin.sum_univ_two]
  rfl

/-- The two sweeps together are zero plus the sum over all samples: 512 tiles of 2048 samples. -/
theorem sweeps_eq (c : Dev nD) : accN m c 255 + accN m c 511 = c0 + ∑ r : Fin 1048576, rowLoss m c r := by
  have e0 : accN m c 255 = c0 + ∑ u ∈ Finset.range 256, partN m c u := by
    have := accN_sweep m c 0 255 (by norm_num)
    simp only [Nat.mul_zero, Nat.zero_add] at this
    exact this
  have e1 : accN m c 511 = c0 + ∑ u ∈ Finset.range 256, partN m c (256 + u) := by
    have := accN_sweep m c 1 255 (by norm_num)
    simp only [Nat.mul_one] at this
    exact this
  have ht : ∑ r : Fin 1048576, rowLoss m c r = ∑ u ∈ Finset.range 512, partN m c u := by
    rw [Cert.Hand.sum_blocks_fin 512 2048 (by norm_num : 1048576 = 512 * 2048), Finset.sum_range]
    refine Finset.sum_congr rfl fun t _ => ?_
    unfold partN
    rw [dif_pos t.isLt]
    rfl
  rw [e0, e1, ht, show (512 : ℕ) = 256 + 256 from rfl, Finset.sum_range_add, c0_eq, zero_add, zero_add, zero_add]

/-- THE RESULT: the host's sum of the output array from zero is zero plus the sum of `rowK` over all samples. -/
theorem result_eq (hT : TileLaw) (c : Dev nD) :
    Pipeline.afterTail₀ cfgs (dats m) 0 (V0 m) [hostOps1] c main_v1 = fun _ => c0 + ∑ r : Fin 1048576, rowLoss m c r := by
  unfold Pipeline.afterTail₀
  show StableHlo.after hostOps1 _ (Proc.devRef .tc main_v1) = _
  after_results
  have hw : Pipeline.withArrays (cfgs 0).spec c (V0 m c) (fun w => (dats m 0 c).arrAt w (cfgs 0).N) (Proc.devRef .tc main_v0)
      = outArr m c :=
    (Pipeline.withArrays_arr spec0 launch0.win.arr_inj c _ _ 2).trans (final m hT c)
  rw [hw]
  funext i
  show Ideal.hostReduceAdd reducesTo_S16x128_S_d0_1 (outFn m c) c0 i = _
  rw [Ideal.hostReduceAdd_total _ (fun b => b.elim0), sum_outFn, sweeps_eq, c0_eq, zero_add, zero_add]

/-- A buffer of the host tail that is no window's array. -/
theorem v1_rest : main_v1 ∈ Pipeline.restRefs sig (cfgs 0).spec :=
  Pipeline.mem_restRefs_of main_v1 rfl (by decide)

/-- THE RUN, READ: every weakly fair execution of the idealized kernel's program terminates with its result at zero plus
    the sum of `rowK` over all samples, and its arguments unchanged. -/
theorem run (hT : TileLaw) : θ_run defs (onTc (τ := τ) (main (F := Ideal))) ⟨m, fun _ => 0, ρ⟩ fun r => ∀ c : Dev nD,
      r.2.mem ((c : Thread nD τ).loc main_v1) = (fun _ => c0 + ∑ r : Fin 1048576, rowLoss m c r)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h c).2 main_v1 v1_rest).trans (result_eq m hT c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.AccValue

end
-- ==== Proof.RefTerm.lean ====
/-
  What the reference computes, as one function of its two argument arrays: its host operations composed in program
  order, each stage named after the quantity it holds. `picked` is the 18 selected columns (a gather whose start
  indices are the constant column table, wrapped if negative); `bceSum` the row sums of the clamped cross-entropy
  terms; `negMean` minus their mean over the 18 attributes; `focalSum` the row sums of the class weight times the
  squared wrong-class probability (a power with exponent 2); `total` the sum over all samples of their product.
-/
import proofs.«141493_j40261023433195_1_alg».proof.ReferenceIdeal

noncomputable section

namespace Cert.ReferenceIdeal.RefValue

open Idealize.ShloMosaic Cert.ReferenceIdeal Cert.ReferenceIdeal.Facts₀

variable {F : FTy → Type} [FloatOps F] [Facts]

/-- The constant table of selected columns. -/
def colTable : IVec S18 32 := fun i => lit0 (S18.rowMajor i)

/-- The start indices of the gather: the table, an entry below zero wrapped by 40, as an 18 × 1 column. -/
def startIdx : IVec S18x1 32 :=
  broadcastInDim S18x1 ![0] bcast_S18_S18x1_0
    (select (cmpi .slt colTable (broadcastInDim S18 ![] bcast_S_S18 (constantI S_ 32 0#32)))
      (addi colTable (broadcastInDim S18 ![] bcast_S_S18 (constantI S_ 32 40#32))) colTable)

/-- The 18 selected columns of the predictions. -/
def picked (x : FVec F S1048576x40 .f32) : FVec F S1048576x18 .f32 :=
  Host.gather gather_S1048576x40_S18x1_S1048576x18_0_1_n_n_1_1_10485761 x startIdx

/-- The labels as numbers. -/
def tgtF (l : IVec S1048576x18 32) : FVec F S1048576x18 .f32 := sitofp .f32 l

/-- Where the label is the positive class. -/
def posMask (l : IVec S1048576x18 32) : IVec S1048576x18 1 :=
  cmpi .eq l (broadcastInDim S1048576x18 ![] bcast_S_S1048576x18 (constantI S_ 32 1#32))

/-- `max (log p) (-100)`. -/
def logP (x : FVec F S1048576x40 .f32) : FVec F S1048576x18 .f32 :=
  maximumf (Host.log (picked x)) (broadcastInDim S1048576x18 ![] bcast_S_S1048576x18 (constant S_ .f32 0xC2C80000#32))

/-- `max (log1p (-p)) (-100)`. -/
def log1mP (x : FVec F S1048576x40 .f32) : FVec F S1048576x18 .f32 :=
  maximumf (Host.log1p (Host.negf (picked x))) (broadcastInDim S1048576x18 ![] bcast_S_S1048576x18 (constant S_ .f32 0xC2C80000#32))

/-- The row sums of `t · logP + (1 - t) · log1mP`, from zero. -/
def bceSum (x : FVec F S1048576x40 .f32) (l : IVec S1048576x18 32) : FVec F S1048576 .f32 :=
  Host.reduceAdd
    (addf (mulf (tgtF l) (logP x))
      (mulf (subf (broadcastInDim S1048576x18 ![] bcast_S_S1048576x18 (constant S_ .f32 0x3F800000#32)) (tgtF l)) (log1mP x)))
    (constant S_ .f32 0x00000000#32) reducesTo_S1048576x18_S1048576_d1 h_S_

/-- Minus the mean over the 18 attributes. -/
def negMean (x : FVec F S1048576x40 .f32) (l : IVec S1048576x18 32) : FVec F S1048576 .f32 :=
  Host.negf (Host.divf (bceSum x l) (broadcastInDim S1048576 ![] bcast_S_S1048576 (constant S_ .f32 0x41900000#32)))

/-- The class weight: 0.8 where positive, 0.2 elsewhere. -/
def alphaF (l : IVec S1048576x18 32) : FVec F S1048576x18 .f32 :=
  select (posMask l) (broadcastInDim S1048576x18 ![] bcast_S_S1048576x18 (constant S_ .f32 0x3F4CCCCD#32))
    (broadcastInDim S1048576x18 ![] bcast_S_S1048576x18 (constant S_ .f32 0x3E4CCCCD#32))

/-- The wrong-class probability: `1 - p` where positive, `p` elsewhere. -/
def ptF (x : FVec F S1048576x40 .f32) (l : IVec S1048576x18 32) : FVec F S1048576x18 .f32 :=
  select (posMask l)
    (subf (broadcastInDim S1048576x18 ![] bcast_S_S1048576x18 (constant S_ .f32 0x3F800000#32)) (picked x)) (picked x)

/-- The row sums of the class weight times the wrong-class probability to the power 2, from zero. -/
def focalSum (x : FVec F S1048576x40 .f32) (l : IVec S1048576x18 32) : FVec F S1048576 .f32 :=
  Host.reduceAdd
    (mulf (id (alphaF l))
      (Host.powf (ptF x l) (broadcastInDim S1048576x18 ![] bcast_S_S1048576x18 (constant S_ .f32 0x40000000#32))))
    (constant S_ .f32 0x00000000#32) reducesTo_S1048576x18_S1048576_d1 h_S_

/-- The loss: the sum over the samples of `focalSum · negMean`, from zero. -/
def total (x : FVec F S1048576x40 .f32) (l : IVec S1048576x18 32) : FVec F S_ .f32 :=
  Host.reduceAdd (mulf (focalSum x l) (negMean x l)) (constant S_ .f32 0x00000000#32) reducesTo_S1048576_S_d0 h_S_

end Cert.ReferenceIdeal.RefValue

end
-- ==== Proof.RefRun.lean ====
/-
  The reference's run: every weakly fair execution of its host program terminates with its result buffer at
  `total` of the two argument arrays (RefTerm.lean) and the arguments unchanged.
-/
import proofs.«141493_j40261023433195_1_alg».proof.Proof.RefTerm
import proofs.«141493_j40261023433195_1_alg».proof.Proof.Gen.ReferenceIdeal
import Idealize.ShloMosaic.Lib.StableHlo.Run

noncomputable section

namespace Cert.ReferenceIdeal.RefValue

open Idealize.ShloMosaic Idealize.ShloMosaic.TcCoe Idealize.SL.Sem Idealize.ShloMosaic.StableHlo
open Cert.ReferenceIdeal Cert.ReferenceIdeal.Gen Cert.ReferenceIdeal.Facts₀

variable {F : FTy → Type} [FloatOps F]

/-- The reference's 54 host operations in program order. The two calls are written out at their call sites over the
    buffers each call names: the first call is two broadcasts of its scalar operands and one select, the second a
    single select. -/
abbrev ops : List (HloOp τ sig (Elt F)) :=
  [ nullary main_c (fun i => lit0 (S18.rowMajor i)),
    nullary main_c_0 (constantI S_ 32 0#32),
    unary main_c_0 main_v0 (broadcastInDim S18 ![] Facts₀.bcast_S_S18 : (⟨S_, .i32⟩ : BufTy).Contents (Elt F) → (⟨S18, .i32⟩ : BufTy).Contents (Elt F)),
    binary main_c main_v0 main_v1 (cmpi .slt : (⟨S18, .i32⟩ : BufTy).Contents (Elt F) → (⟨S18, .i32⟩ : BufTy).Contents (Elt F) → (⟨S18, .i1⟩ : BufTy).Contents (Elt F)),
    nullary main_c_1 (constantI S_ 32 40#32),
    unary main_c_1 main_v2 (broadcastInDim S18 ![] Facts₀.bcast_S_S18 : (⟨S_, .i32⟩ : BufTy).Contents (Elt F) → (⟨S18, .i32⟩ : BufTy).Contents (Elt F)),
    binary main_c main_v2 main_v3 (addi : (⟨S18, .i32⟩ : BufTy).Contents (Elt F) → (⟨S18, .i32⟩ : BufTy).Contents (Elt F) → (⟨S18, .i32⟩ : BufTy).Contents (Elt F)),
    ternary main_v1 main_v3 main_c main_v4 (select : (⟨S18, .i1⟩ : BufTy).Contents (Elt F) → (⟨S18, .i32⟩ : BufTy).Contents (Elt F) → (⟨S18, .i32⟩ : BufTy).Contents (Elt F) → (⟨S18, .i32⟩ : BufTy).Contents (Elt F)),
    unary main_v4 main_v5 (broadcastInDim S18x1 ![0] Facts₀.bcast_S18_S18x1_0 : (⟨S18, .i32⟩ : BufTy).Contents (Elt F) → (⟨S18x1, .i32⟩ : BufTy).Contents (Elt F)),
    binary main_arg0 main_v5 main_v6 ((fun x i => Host.gather gather_S1048576x40_S18x1_S1048576x18_0_1_n_n_1_1_10485761 x i) : (⟨S1048576x40, .f32⟩ : BufTy).Contents (Elt F) → (⟨S18x1, .i32⟩ : BufTy).Contents (Elt F) → (⟨S1048576x18, .f32⟩ : BufTy).Contents (Elt F)),
    unary main_arg1 main_v7 (sitofp .f32 : (⟨S1048576x18, .i32⟩ : BufTy).Contents (Elt F) → (⟨S1048576x18, .f32⟩ : BufTy).Contents (Elt F)),
    nullary main_c_2 (constantI S_ 32 1#32),
    unary main_c_2 main_v8 (broadcastInDim S1048576x18 ![] Facts₀.bcast_S_S1048576x18 : (⟨S_, .i32⟩ : BufTy).Contents (Elt F) → (⟨S1048576x18, .i32⟩ : BufTy).Contents (Elt F)),
    binary main_arg1 main_v8 main_v9 (cmpi .eq : (⟨S1048576x18, .i32⟩ : BufTy).Contents (Elt F) → (⟨S1048576x18, .i32⟩ : BufTy).Contents (Elt F) → (⟨S1048576x18, .i1⟩ : BufTy).Contents (Elt F)),
    unary main_v6 main_v10 (Host.log : (⟨S1048576x18, .f32⟩ : BufTy).Contents (Elt F) → (⟨S1048576x18, .f32⟩ : BufTy).Contents (Elt F)),
    nullary main_cst (constant S_ .f32 0xC2C80000#32),
    unary main_cst main_v11 (broadcastInDim S1048576x18 ![] Facts₀.bcast_S_S1048576x18 : (⟨S_, .f32⟩ : BufTy).Contents (Elt F) → (⟨S1048576x18, .f32⟩ : BufTy).Contents (Elt F)),
    binary main_v10 main_v11 main_v12 (maximumf : (⟨S1048576x18, .f32⟩ : BufTy).Contents (Elt F) → (⟨S1048576x18, .f32⟩ : BufTy).Contents (Elt F) → (⟨S1048576x18, .f32⟩ : BufTy).Contents (Elt F)),
    unary main_v6 main_v13 (Host.negf : (⟨S1048576x18, .f32⟩ : BufTy).Contents (Elt F) → (⟨S1048576x18, .f32⟩ : BufTy).Contents (Elt F)),
    unary main_v13 main_v14 (Host.log1p : (⟨S1048576x18, .f32⟩ : BufTy).Contents (Elt F) → (⟨S1048576x18, .f32⟩ : BufTy).Contents (Elt F)),
    nullary main_cst_3 (constant S_ .f32 0xC2C80000#32),
    unary main_cst_3 main_v15 (broadcastInDim S1048576x18 ![] Facts₀.bcast_S_S1048576x18 : (⟨S_, .f32⟩ : BufTy).Contents (Elt F) → (⟨S1048576x18, .f32⟩ : BufTy).Contents (Elt F)),
    binary main_v14 main_v15 main_v16 (maximumf : (⟨S1048576x18, .f32⟩ : BufTy).Contents (Elt F) → (⟨S1048576x18, .f32⟩ : BufTy).Contents (Elt F) → (⟨S1048576x18, .f32⟩ : BufTy).Contents (Elt F)),
    binary main_v7 main_v12 main_v17 (mulf : (⟨S1048576x18, .f32⟩ : BufTy).Contents (Elt F) → (⟨S1048576x18, .f32⟩ : BufTy).Contents (Elt F) → (⟨S1048576x18, .f32⟩ : BufTy).Contents (Elt F)),
    nullary main_cst_4 (constant S_ .f32 0x3F800000#32),
    unary main_cst_4 main_v18 (broadcastInDim S1048576x18 ![] Facts₀.bcast_S_S1048576x18 : (⟨S_, .f32⟩ : BufTy).Contents (Elt F) → (⟨S1048576x18, .f32⟩ : BufTy).Contents (Elt F)),
    binary main_v18 main_v7 main_v19 (subf : (⟨S1048576x18, .f32⟩ : BufTy).Contents (Elt F) → (⟨S1048576x18, .f32⟩ : BufTy).Contents (Elt F) → (⟨S1048576x18, .f32⟩ : BufTy).Contents (Elt F)),
    binary main_v19 main_v16 main_v20 (mulf : (⟨S1048576x18, .f32⟩ : BufTy).Contents (Elt F) → (⟨S1048576x18, .f32⟩ : BufTy).Contents (Elt F) → (⟨S1048576x18, .f32⟩ : BufTy).Contents (Elt F)),
    binary main_v17 main_v20 main_v21 (addf : (⟨S1048576x18, .f32⟩ : BufTy).Contents (Elt F) → (⟨S1048576x18, .f32⟩ : BufTy).Contents (Elt F) → (⟨S1048576x18, .f32⟩ : BufTy).Contents (Elt F)),
    nullary main_cst_5 (constant S_ .f32 0x00000000#32),
    binary main_v21 main_cst_5 main_v22 ((fun x v => Host.reduceAdd x v Facts₀.reducesTo_S1048576x18_S1048576_d1 Facts₀.h_S_) : (⟨S1048576x18, .f32⟩ : BufTy).Contents (Elt F) → (⟨S_, .f32⟩ : BufTy).Contents (Elt F) → (⟨S1048576, .f32⟩ : BufTy).Contents (Elt F)),
    nullary main_cst_6 (constant S_ .f32 0x41900000#32),
    unary main_cst_6 main_v23 (broadcastInDim S1048576 ![] Facts₀.bcast_S_S1048576 : (⟨S_, .f32⟩ : BufTy).Contents (Elt F) → (⟨S1048576, .f32⟩ : BufTy).Contents (Elt F)),
    binary main_v22 main_v23 main_v24 (Host.divf : (⟨S1048576, .f32⟩ : BufTy).Contents (Elt F) → (⟨S1048576, .f32⟩ : BufTy).Contents (Elt F) → (⟨S1048576, .f32⟩ : BufTy).Contents (Elt F)),
    unary main_v24 main_v25 (Host.negf : (⟨S1048576, .f32⟩ : BufTy).Contents (Elt F) → (⟨S1048576, .f32⟩ : BufTy).Contents (Elt F)),
    nullary main_cst_7 (constant S_ .f32 0x3F4CCCCD#32),
    nullary main_cst_8 (constant S_ .f32 0x3E4CCCCD#32),
    unary main_cst_7 main_call0_v0 (broadcastInDim S1048576x18 ![] Facts₀.bcast_S_S1048576x18 : (⟨S_, .f32⟩ : BufTy).Contents (Elt F) → (⟨S1048576x18, .f32⟩ : BufTy).Contents (Elt F)),
    unary main_cst_8 main_call0_v1 (broadcastInDim S1048576x18 ![] Facts₀.bcast_S_S1048576x18 : (⟨S_, .f32⟩ : BufTy).Contents (Elt F) → (⟨S1048576x18, .f32⟩ : BufTy).Contents (Elt F)),
    ternary main_v9 main_call0_v0 main_call0_v1 main_v26 (select : (⟨S1048576x18, .i1⟩ : BufTy).Contents (Elt F) → (⟨S1048576x18, .f32⟩ : BufTy).Contents (Elt F) → (⟨S1048576x18, .f32⟩ : BufTy).Contents (Elt F) → (⟨S1048576x18, .f32⟩ : BufTy).Contents (Elt F)),
    nullary main_cst_9 (constant S_ .f32 0x3F800000#32),
    unary main_cst_9 main_v27 (broadcastInDim S1048576x18 ![] Facts₀.bcast_S_S1048576x18 : (⟨S_, .f32⟩ : BufTy).Contents (Elt F) → (⟨S1048576x18, .f32⟩ : BufTy).Contents (Elt F)),
    binary main_v27 main_v6 main_v28 (subf : (⟨S1048576x18, .f32⟩ : BufTy).Contents (Elt F) → (⟨S1048576x18, .f32⟩ : BufTy).Contents (Elt F) → (⟨S1048576x18, .f32⟩ : BufTy).Contents (Elt F)),
    ternary main_v9 main_v28 main_v6 main_v29 (select : (⟨S1048576x18, .i1⟩ : BufTy).Contents (Elt F) → (⟨S1048576x18, .f32⟩ : BufTy).Contents (Elt F) → (⟨S1048576x18, .f32⟩ : BufTy).Contents (Elt F) → (⟨S1048576x18, .f32⟩ : BufTy).Contents (Elt F)),
    nullary main_cst_10 (constant S_ .f32 0x40000000#32),
    unary main_cst_10 main_v30 (broadcastInDim S1048576x18 ![] Facts₀.bcast_S_S1048576x18 : (⟨S_, .f32⟩ : BufTy).Contents (Elt F) → (⟨S1048576x18, .f32⟩ : BufTy).Contents (Elt F)),
    binary main_v29 main_v30 main_v31 (Host.powf : (⟨S1048576x18, .f32⟩ : BufTy).Contents (Elt F) → (⟨S1048576x18, .f32⟩ : BufTy).Contents (Elt F) → (⟨S1048576x18, .f32⟩ : BufTy).Contents (Elt F)),
    unary main_v26 main_v32 (id : (⟨S1048576x18, .f32⟩ : BufTy).Contents (Elt F) → (⟨S1048576x18, .f32⟩ : BufTy).Contents (Elt F)),
    binary main_v32 main_v31 main_v33 (mulf : (⟨S1048576x18, .f32⟩ : BufTy).Contents (Elt F) → (⟨S1048576x18, .f32⟩ : BufTy).Contents (Elt F) → (⟨S1048576x18, .f32⟩ : BufTy).Contents (Elt F)),
    nullary main_cst_11 (constant S_ .f32 0x00000000#32),
    binary main_v33 main_cst_11 main_v34 ((fun x v => Host.reduceAdd x v Facts₀.reducesTo_S1048576x18_S1048576_d1 Facts₀.h_S_) : (⟨S1048576x18, .f32⟩ : BufTy).Contents (Elt F) → (⟨S_, .f32⟩ : BufTy).Contents (Elt F) → (⟨S1048576, .f32⟩ : BufTy).Contents (Elt F)),
    binary main_v34 main_v25 main_v35 (mulf : (⟨S1048576, .f32⟩ : BufTy).Contents (Elt F) → (⟨S1048576, .f32⟩ : BufTy).Contents (Elt F) → (⟨S1048576, .f32⟩ : BufTy).Contents (Elt F)),
    nullary main_cst_12 (constant S_ .f32 0x00000000#32),
    binary main_v35 main_cst_12 main_v36 ((fun x v => Host.reduceAdd x v Facts₀.reducesTo_S1048576_S_d0 Facts₀.h_S_) : (⟨S1048576, .f32⟩ : BufTy).Contents (Elt F) → (⟨S_, .f32⟩ : BufTy).Contents (Elt F) → (⟨S_, .f32⟩ : BufTy).Contents (Elt F)) ]

/-- The host program is that straight line: a call is its callee's operations run in place. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨nullary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., nullary_bufs_sub ..,
    unary_bufs_sub .., binary_bufs_sub .., unary_bufs_sub .., nullary_bufs_sub .., unary_bufs_sub .., binary_bufs_sub ..,
    unary_bufs_sub .., unary_bufs_sub .., nullary_bufs_sub .., unary_bufs_sub .., binary_bufs_sub .., binary_bufs_sub ..,
    nullary_bufs_sub .., unary_bufs_sub .., binary_bufs_sub .., binary_bufs_sub .., binary_bufs_sub .., nullary_bufs_sub ..,
    binary_bufs_sub .., nullary_bufs_sub .., unary_bufs_sub .., binary_bufs_sub .., unary_bufs_sub .., nullary_bufs_sub ..,
    nullary_bufs_sub .., unary_bufs_sub .., unary_bufs_sub .., ternary_bufs_sub .., nullary_bufs_sub .., unary_bufs_sub ..,
    binary_bufs_sub .., ternary_bufs_sub .., nullary_bufs_sub .., unary_bufs_sub .., binary_bufs_sub .., unary_bufs_sub ..,
    binary_bufs_sub .., nullary_bufs_sub .., binary_bufs_sub .., binary_bufs_sub .., nullary_bufs_sub .., binary_bufs_sub ..⟩

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v36)
        = total (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v36).trans (by after_results_simp; rfl),
      (h c main_arg0).trans (by after_results_simp),
      (h c main_arg1).trans (by after_results_simp)⟩)
    (run_seq scopedRefs_eq scopedSems_eq defs main (fun _ => ops) main_eq (fun _ => ops_sub) m ρ)

end Cert.ReferenceIdeal.RefValue

end
-- ==== Proof.LibRowReduce.lean ====
/-
  Row reductions of a rank-2 vector along its second axis, read at a row: the general facts a row-wise
  softmax, log-softmax or normalisation needs once both programs are down to one row.

  For a vector `x` of shape [R, D] and a row `r`:
  * the kernel's lane reduction with a maximum body is the fold of `max`, from the accumulator's value, over the
    row's entries `x (r, k)`, `k : Fin D` (`multiReduction_maximumf_row`);
  * the kernel's lane reduction with an add body is the sum of the row's entries (`multiReduction_add_row`);
  * the host's reduce with a maximum body is the same fold from the initial value (`hostReduce_maximumf_row`),
    and the host's sum is the initial value plus the sum of the row's entries (`hostReduceAdd_row`);
  * the f32 pattern of minus infinity is the bottom extended real (`ofBits_negInf_f32`), which `max` absorbs
    (`max_negInf_left`), so a maximum taken from minus infinity may be taken from it twice
    (`max_negInf_fold`).
  All at the ideal instance, where floats are extended reals.
-/
import Idealize.ShloMosaic.PureOps.Ideal.Laws
import Idealize.ShloMosaic.Lib.ValueIdx

noncomputable section

open scoped BigOperators

namespace Idealize.ShloMosaic.RowReduce

open Idealize.ShloMosaic Idealize.ShloMosaic.ValueIdx

variable {φ : FTy} {R D : Nat}

/-- Row `r` with column `k` put back on the reduced axis is the index (r, k). -/
theorem lift_row (h : (⟨2, ![R, D]⟩ : Shape).Reduces [1] (⟨1, ![R]⟩ : Shape)) (r : Fin R)
    (k : Fin ((⟨2, ![R, D]⟩ : Shape).size 1)) : h.lift (ix1 r) k = ix2 r (⟨k.val, k.isLt⟩ : Fin D) := by
  funext c; apply Fin.ext
  fin_cases c <;> rfl

/-- A lane reduction with a maximum body over the columns, at row `r`: the fold of `max` from the accumulator's
    value over that row's entries. -/
theorem multiReduction_maximumf_row (x : FVec Ideal ⟨2, ![R, D]⟩ φ) (acc : BitVec φ.bits)
    (h : (⟨2, ![R, D]⟩ : Shape).Reduces [1] (⟨1, ![R]⟩ : Shape)) (hφ : FKind.Formats φ)
    (hacc : acc = FKind.maximumf.neutral φ hφ) (r : Fin R) :
    multiReduction .maximumf [1] ⟨1, ![R]⟩ x acc h hφ hacc (ix1 r)
      = (Finset.univ : Finset (Fin D)).fold max (Ideal.ofBits φ acc) (fun k => x (ix2 r k)) := by
  rw [Ideal.multiReduction_maximumf_single]
  have hf : (x ∘ h.lift (ix1 r)) = fun k : Fin D => x (ix2 r k) := funext fun k => congrArg x (lift_row h r k)
  exact congrArg (fun f => Finset.fold max (Ideal.ofBits φ acc) f (Finset.univ : Finset (Fin D))) hf

/-- A lane reduction with an add body over the columns, at row `r`: the sum of that row's entries. -/
theorem multiReduction_add_row (x : FVec Ideal ⟨2, ![R, D]⟩ φ) (acc : BitVec φ.bits)
    (h : (⟨2, ![R, D]⟩ : Shape).Reduces [1] (⟨1, ![R]⟩ : Shape)) (hφ : FKind.Formats φ)
    (hacc : acc = FKind.add.neutral φ hφ) (r : Fin R) :
    multiReduction .add [1] ⟨1, ![R]⟩ x acc h hφ hacc (ix1 r) = ∑ k : Fin D, x (ix2 r k) := by
  rw [Ideal.multiReduction_add_single]
  exact Finset.sum_congr rfl fun k _ => congrArg x (lift_row h r k)

/-- The host's reduce with a maximum body over the columns, at row `r`: the fold of `max` from the initial
    value over that row's entries. -/
theorem hostReduce_maximumf_row {u : Shape} (x : FVec Ideal ⟨2, ![R, D]⟩ φ) (init : u.Idx → Ideal φ)
    (h' : (⟨2, ![R, D]⟩ : Shape).ReducesTo [1] (⟨1, ![R]⟩ : Shape))
    (h : (⟨2, ![R, D]⟩ : Shape).Reduces [1] (⟨1, ![R]⟩ : Shape)) (hu : 0 < u.numel) (r : Fin R) :
    Host.reduce FloatOps.maximumf x init h' hu (ix1 r)
      = (Finset.univ : Finset (Fin D)).fold max (init (Shape.Idx.first hu)) (fun k => x (ix2 r k)) := by
  rw [Host.reduce_eq_fold_single FloatOps.maximumf x init h' h hu]
  have hf : (x ∘ h.lift (ix1 r)) = fun k : Fin D => x (ix2 r k) := funext fun k => congrArg x (lift_row h r k)
  exact congrArg (fun f => Finset.fold max (init (Shape.Idx.first hu)) f (Finset.univ : Finset (Fin D))) hf

/-- The host's sum over the columns, at row `r`: the initial value plus the sum of that row's entries. -/
theorem hostReduceAdd_row (x : (⟨2, ![R, D]⟩ : Shape).Idx → EReal) (init : EReal)
    (h' : (⟨2, ![R, D]⟩ : Shape).ReducesTo [1] (⟨1, ![R]⟩ : Shape))
    (h : (⟨2, ![R, D]⟩ : Shape).Reduces [1] (⟨1, ![R]⟩ : Shape)) (r : Fin R) :
    Ideal.hostReduceAdd h' x init (ix1 r) = init + ∑ k : Fin D, x (ix2 r k) := by
  rw [Ideal.hostReduceAdd_single h' h]
  exact congrArg (init + ·) (Finset.sum_congr rfl fun k _ => congrArg x (lift_row h r k))

/-- The f32 pattern of minus infinity denotes the bottom extended real. -/
theorem ofBits_negInf_f32 : Ideal.ofBits .f32 0xFF800000#32 = (⊥ : EReal) := by
  simp [Ideal.ofBits, Ideal.ieee]

/-- Minus infinity is neutral for `max`. -/
theorem max_negInf_left (y : EReal) : max (Ideal.ofBits .f32 0xFF800000#32) y = y := by
  rw [ofBits_negInf_f32]; exact max_eq_right bot_le

/-- A maximum taken from minus infinity, joined once more with minus infinity, is itself. -/
theorem max_negInf_fold (f : Fin D → EReal) :
    max (Ideal.ofBits .f32 0xFF800000#32) ((Finset.univ : Finset (Fin D)).fold max (Ideal.ofBits .f32 0xFF800000#32) f)
      = (Finset.univ : Finset (Fin D)).fold max (Ideal.ofBits .f32 0xFF800000#32) f :=
  max_negInf_left _

end Idealize.ShloMosaic.RowReduce

end
-- ==== Proof.RefRead.lean ====
/-
  The reference's result read as mathematics: over the extended reals, `total x l` at its one index is zero plus the
  sum over the 1,048,576 samples of the sample's loss in its second text (`rowR`, Spec.lean), the sample's
  predictions the selected columns of row `r` of `x` and its labels row `r` of `l`.
-/
import proofs.«141493_j40261023433195_1_alg».proof.Proof.RefTerm
import proofs.«141493_j40261023433195_1_alg».proof.Proof.Gen.ReferenceIdeal
import proofs.«141493_j40261023433195_1_alg».proof.Proof.Spec
import proofs.«141493_j40261023433195_1_alg».proof.Proof.LibRowReduce
import Idealize.ShloMosaic.PureOps.Ideal.Laws
import Idealize.ShloMosaic.Lib.ValueIdx

noncomputable section

open scoped BigOperators

namespace Cert.ReferenceIdeal.RefValue

open Idealize.ShloMosaic Idealize.ShloMosaic.ValueIdx
open Cert.ReferenceIdeal Cert.ReferenceIdeal.Gen Cert.ReferenceIdeal.Facts₀ Cert.AttrLoss

/-- The start index of attribute `j`, read signed and clamped to the last column, is the selected column: the
    table's entries are the literals of `sel`, none below zero, so no entry is wrapped. -/
theorem start_val (j : Fin 18) : min (startIdx (ix2 j (0 : Fin 1))).toInt.toNat (40 - 1) = (sel j).val := by
  fin_cases j <;> rfl

local notation "gd" => gather_S1048576x40_S18x1_S1048576x18_0_1_n_n_1_1_10485761

/-- The result index (r, j) reads its start index at (j, 0) of the 18 × 1 column. -/
theorem siIdx_eq (r : Fin 1048576) (j : Fin 18) (c : Fin (gd).startIndexMap.length) :
    (gd).siIdx (ix2 r j) c = ix2 j (0 : Fin 1) := by
  funext b; refine Fin.ext ?_
  match b with
  | ⟨0, _⟩ => rfl
  | ⟨1, _⟩ =>
    show c.val = 0
    have := c.isLt
    have h1 : (gd).startIndexMap.length = 1 := rfl
    omega

/-- The gather at (r, j) is the prediction at row `r`, column `sel j`: on the row axis the slice is whole (start 0,
    offset the result's row), on the column axis it is one wide and starts at the table's entry. -/
theorem picked_apply (x : FVec Ideal S1048576x40 .f32) (r : Fin 1048576) (j : Fin 18) :
    picked (F := Ideal) x (ix2 r j) = x (ix2 r (sel j)) := by
  unfold picked Host.gather
  congr 1
  funext a
  refine Fin.ext ?_
  match a with
  | ⟨0, _⟩ =>
    show (gd).start (ix2 r j) startIdx 0 + (gd).batchCoord (ix2 r j) 0 + (gd).offCoord (ix2 r j) 0 = r.val
    rw [GatherDims.batchCoord_eq_zero _ _ _ List.not_mem_nil]
    unfold GatherDims.start
    rw [dif_neg (by decide)]
    unfold GatherDims.offCoord
    rw [dif_pos (by decide)]
    simp only [Nat.zero_add]
    rfl
  | ⟨1, _⟩ =>
    show (gd).start (ix2 r j) startIdx 1 + (gd).batchCoord (ix2 r j) 1 + (gd).offCoord (ix2 r j) 1 = (sel j).val
    rw [GatherDims.batchCoord_eq_zero _ _ _ List.not_mem_nil,
      GatherDims.offCoord_eq_zero _ _ _ (by decide)]
    simp only [Nat.add_zero]
    unfold GatherDims.start
    rw [dif_pos (by decide)]
    rw [siIdx_eq]
    exact start_val j

/-- The clamped logarithm at (r, j). -/
theorem logP_apply (x : FVec Ideal S1048576x40 .f32) (r : Fin 1048576) (j : Fin 18) :
    logP (F := Ideal) x (ix2 r j) = max (Ideal.log (x (ix2 r (sel j)))) cm100 := by
  rw [← picked_apply x r j]; rfl

/-- The clamped logarithm of one minus the prediction at (r, j). -/
theorem log1mP_apply (x : FVec Ideal S1048576x40 .f32) (r : Fin 1048576) (j : Fin 18) :
    log1mP (F := Ideal) x (ix2 r j) = max (Ideal.log1p (-(x (ix2 r (sel j))))) cm100 := by
  rw [← picked_apply x r j]; rfl

/-- The wrong-class probability at (r, j). -/
theorem ptF_apply (x : FVec Ideal S1048576x40 .f32) (l : IVec S1048576x18 32) (r : Fin 1048576) (j : Fin 18) :
    ptF (F := Ideal) x l (ix2 r j) = pt (x (ix2 r (sel j))) (l (ix2 r j)) := by
  rw [← picked_apply x r j]; rfl

/-- The cross-entropy row sum at sample `r`: zero plus the sum of the 18 attribute terms. -/
theorem bceSum_apply (x : FVec Ideal S1048576x40 .f32) (l : IVec S1048576x18 32) (r : Fin 1048576) :
    bceSum (F := Ideal) x l (ix1 r)
      = c0 + ∑ j : Fin 18, bce (x (ix2 r (sel j))) (l (ix2 r j)) (-(x (ix2 r (sel j)))) := by
  unfold bceSum Host.reduceAdd
  rw [Ideal.hostReduceAdd_def, RowReduce.hostReduceAdd_row _ _ _ (by decide) r]
  refine congrArg (c0 + ·) (Finset.sum_congr rfl fun j _ => ?_)
  show tgt (l (ix2 r j)) * logP (F := Ideal) x (ix2 r j) + (c1 - tgt (l (ix2 r j))) * log1mP (F := Ideal) x (ix2 r j) = _
  rw [logP_apply, log1mP_apply]; rfl

/-- The focal row sum at sample `r`: zero plus the sum of weight times squared wrong-class probability. -/
theorem focalSum_apply (x : FVec Ideal S1048576x40 .f32) (l : IVec S1048576x18 32) (r : Fin 1048576) :
    focalSum (F := Ideal) x l (ix1 r)
      = c0 + ∑ j : Fin 18, alpha (l (ix2 r j)) * Ideal.pow (pt (x (ix2 r (sel j))) (l (ix2 r j))) c2 := by
  unfold focalSum Host.reduceAdd
  rw [Ideal.hostReduceAdd_def, RowReduce.hostReduceAdd_row _ _ _ (by decide) r]
  refine congrArg (c0 + ·) (Finset.sum_congr rfl fun j _ => ?_)
  show alpha (l (ix2 r j)) * Ideal.pow (ptF (F := Ideal) x l (ix2 r j)) c2 = _
  rw [ptF_apply]

/-- Minus the mean of the cross-entropy terms at sample `r`. -/
theorem negMean_apply (x : FVec Ideal S1048576x40 .f32) (l : IVec S1048576x18 32) (r : Fin 1048576) :
    negMean (F := Ideal) x l (ix1 r)
      = -(Ideal.div (c0 + ∑ j : Fin 18, bce (x (ix2 r (sel j))) (l (ix2 r j)) (-(x (ix2 r (sel j))))) c18) := by
  rw [← bceSum_apply]; rfl

/-- A rank-1 index set is its one coordinate's range … -/
def idxEquiv1 {n : Nat} : (⟨1, ![n]⟩ : Shape).Idx ≃ Fin n where
  toFun i := i 0
  invFun r := ix1 r
  left_inv i := (eq_ix1 i).symm
  right_inv _ := rfl

/-- … so a sum over it is the sum over the coordinate. -/
theorem sum_idx1 {n : Nat} (f : (⟨1, ![n]⟩ : Shape).Idx → EReal) : ∑ i, f i = ∑ r : Fin n, f (ix1 r) := by
  rw [← Equiv.sum_comp (idxEquiv1 (n := n)).symm f]
  rfl

/-- The product of the two row quantities at sample `r` is the sample's loss, the square written as a power with
    exponent 2 and the sums taken from zero (`rowR`). -/
theorem prod_apply (x : FVec Ideal S1048576x40 .f32) (l : IVec S1048576x18 32) (r : Fin 1048576) :
    mulf (focalSum (F := Ideal) x l) (negMean (F := Ideal) x l) (ix1 r)
      = rowR (fun j => x (ix2 r (sel j))) (fun j => l (ix2 r j)) := by
  rw [mulf_apply, focalSum_apply, negMean_apply]
  unfold rowR
  rfl

theorem total_apply (x : FVec Ideal S1048576x40 .f32) (l : IVec S1048576x18 32) (i : S_.Idx) :
    total (F := Ideal) x l i
      = c0 + ∑ r : Fin 1048576, rowR (fun j => x (ix2 r (sel j))) (fun j => l (ix2 r j)) := by
  unfold total Host.reduceAdd
  rw [Ideal.hostReduceAdd_def, Ideal.hostReduceAdd_total _ (fun b => b.elim0), sum_idx1, constant_apply]
  simp only [prod_apply]

end Cert.ReferenceIdeal.RefValue

end
-- ==== Proof.Finite.lean ====
/-
  The precondition read: if the finiteness predicate holds of the idealized kernel's memory, every entry of its
  prediction array is a real number (neither infinity).
-/
import proofs.«141493_j40261023433195_1_alg».proof.Defs
import proofs.«141493_j40261023433195_1_alg».proof.Proof.Gen.Pre_finite_inputs
import Idealize.ShloMosaic.Lib.ReduceAll

noncomputable section

namespace Cert.AttrLoss

open Idealize.ShloMosaic Idealize.ShloMosaic.TcCoe Idealize.SL.Sem

namespace PreRead

/-- On the extended reals, `max x (-x) < ⊤` holds only at a real number: at `⊥` and at `⊤` the maximum is `⊤`. -/
theorem real_of_abs_lt_top (x : EReal) (hx : max x (-x) < ⊤) : ∃ r : ℝ, x = (r : EReal) := by
  induction x using EReal.rec with
  | bot => simp at hx
  | coe r => exact ⟨r, rfl⟩
  | top => simp at hx

/-- The f32 word `0x7F800000` (sign 0, exponent all ones, fraction 0) denotes `⊤`. -/
theorem ofBits_inf : Ideal.ofBits .f32 0x7F800000#32 = (⊤ : EReal) := by
  simp [Ideal.ofBits, Ideal.ieee]

/-- The element fact: the ordered comparison `|x| < +∞` answering 1 says `x` is a real number. -/
theorem real_of_cmp (x : EReal)
    (hx : Ideal.cmp .olt (max x (-x)) (Ideal.ofBits .f32 0x7F800000#32) = 1#1) : ∃ r : ℝ, x = (r : EReal) := by
  rw [ofBits_inf] at hx
  refine real_of_abs_lt_top x ?_
  by_contra hn
  simp [Ideal.cmp, hn] at hx

end PreRead

theorem real_of_pre [hP : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S1048576x40.Idx) :
    ∃ r : ℝ, m ((c.tc : Thread Cert.KernelIdeal.nD Cert.KernelIdeal.τ).loc Cert.KernelIdeal.main_arg0) i = (r : EReal) := by
  -- the result of the reduction has rank 0, hence exactly one index
  haveI : Subsingleton Cert.Pre_finite_inputs.S_.Idx := ⟨fun a b => funext fun d => d.elim0⟩
  have h0 := congrFun (h c) (fun a => a.elim0)
  dsimp only [Cert.Pre_finite_inputs.fn] at h0
  have h1 := Host.reduce_andi_all _ _ _ _ _ h0 i
  exact PreRead.real_of_cmp _ h1

end Cert.AttrLoss

end
-- ==== Proof.lean ====
/-
  The attribute-prediction loss of 1,048,576 samples — per sample, the focal-weighted sum over 18 selected
  attributes times minus the mean clamped binary cross-entropy over them — computed by a tiled kernel with a
  carried accumulator and by a plain array program, agree over the extended reals whenever the predictions are
  finite.

  Per sample both programs apply the same operations to the same entries except for three spellings: the kernel
  squares the wrong-class probability by a product where the reference raises it to the power 2 (equal on the
  reals; the precondition makes every prediction a real), negates as `0 - x` where the reference negates, and
  sums from nothing where the reference sums from an explicit zero (`row_eq`, Spec.lean). Over the samples the
  kernel sums tile by tile (2048 samples), sweep by sweep (256 tiles into one accumulator), writes each sweep's
  total into the corner of an otherwise zero 8 × 128 block and lets the host sum the 16 × 128 array; the reference
  sums the samples directly. Addition of extended reals is commutative and associative, so the groupings agree
  (KAccum.lean; the reference's side is RefRun.lean and RefRead.lean).

  The three frames: the kernel's two are the generated frame certificates; the reference's is its run with the
  result dropped. The idealization rewrote nothing, so `preserves` is trivial.
-/
import proofs.«141493_j40261023433195_1_alg».proof.Defs
import proofs.«141493_j40261023433195_1_alg».proof.Proof.Gen.Kernel
import proofs.«141493_j40261023433195_1_alg».proof.Proof.Gen.Kernel.Frame
import proofs.«141493_j40261023433195_1_alg».proof.Proof.Gen.KernelIdeal
import proofs.«141493_j40261023433195_1_alg».proof.Proof.Gen.KernelIdeal.Frame
import proofs.«141493_j40261023433195_1_alg».proof.Proof.Gen.ReferenceIdeal
import proofs.«141493_j40261023433195_1_alg».proof.Proof.Gen.Pre_finite_inputs
import proofs.«141493_j40261023433195_1_alg».proof.Proof.Spec
import proofs.«141493_j40261023433195_1_alg».proof.Proof.KTile
import proofs.«141493_j40261023433195_1_alg».proof.Proof.KAccum
import proofs.«141493_j40261023433195_1_alg».proof.Proof.RefRun
import proofs.«141493_j40261023433195_1_alg».proof.Proof.RefRead
import proofs.«141493_j40261023433195_1_alg».proof.Proof.Finite
import Idealize.ShloMosaic.Adequacy
import Idealize.ShloMosaic.Init

noncomputable section

open scoped BigOperators

namespace Cert.Proof

open Idealize.ShloMosaic Idealize.ShloMosaic.TcCoe Idealize.ShloMosaic.ValueIdx Idealize.SL.Sem Cert.AttrLoss

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2)
    (Cert.ReferenceIdeal.RefValue.run (F := Ideal) m ρ)

theorem preserves : Cert.preserves_Kernel_KernelIdeal := trivial

/-- Both programs end at zero plus the sum over the samples of the sample's loss: the kernel's in its own text,
    the reference's in the other, equal sample by sample because every prediction is a real. -/
theorem algebraic : Cert.algebraic_KernelIdeal_ReferenceIdeal := by
  intro m ρ m' ρ' hpre hagree
  refine ⟨fun c => (fun _ => c0 + ∑ r : Fin 1048576, Cert.KernelIdeal.AccValue.rowLoss m c r),
    Cert.KernelIdeal.AccValue.run m ρ Cert.KernelIdeal.TileValue.tile_apply, ?_⟩
  refine (θ_run Cert.ReferenceIdeal.defs _ _).mono (fun _ h c => ⟨(h c).1.trans ?_, (h c).2⟩)
    (Cert.ReferenceIdeal.RefValue.run (F := Ideal) m' ρ')
  rw [(hagree c).1, (hagree c).2]
  funext i
  rw [Cert.ReferenceIdeal.RefValue.total_apply]
  refine congrArg (c0 + ·) (Finset.sum_congr rfl fun r _ => ?_)
  exact (row_eq _ _ (fun j => real_of_pre m hpre c (ix2 r (sel j)))).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
